-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 46
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S100000x128, .f32⟩
  | .hbm, ⟨29, _⟩ => ⟨S1x128, .f32⟩
  | .hbm, ⟨30, _⟩ => ⟨S1x128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S128x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .i32⟩
  | .hbm, ⟨52, _⟩ => ⟨S_, .f32⟩
  | .hbm, ⟨53, _⟩ => ⟨S128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_cst : Ref sig .tc := ⟨.hbm, 42, rfl⟩
abbrev main_call1_v0 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_v7 : Ref sig .tc := ⟨.hbm, 61, rfl⟩
abbrev main_call2_cst_1 : Ref sig .tc := ⟨.hbm, 62, rfl⟩
abbrev main_call2_v8 : Ref sig .tc := ⟨.hbm, 63, rfl⟩
abbrev main_call2_cst_2 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_cst_3 : Ref sig .tc := ⟨.hbm, 68, rfl⟩
abbrev main_call2_v12 : Ref sig .tc := ⟨.hbm, 69, rfl⟩
abbrev main_call2_cst_4 : Ref sig .tc := ⟨.hbm, 70, rfl⟩
abbrev main_call2_call0_v0 : Ref sig .tc := ⟨.hbm, 71, rfl⟩
abbrev main_call2_call0_v1 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_4 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  Both programs as one function of the argument arrays, index by index, over the extended reals.

  A node r of 100000 carries 128 features. With A the aggregated neighbour features (a sum of rows of x),
  the new feature of node r in channel j is
      y r j = max (A_r · Wrel_j + brel_j + x_r · Wroot_j) 0 + max (x_r · Wres_j + bres_j) 0,
  each dot product a sum over the 128 input channels. The layer then normalises each channel over the nodes:
      out r j = (y r j - mean j) · rsqrt (var j + ε) · γ j + β j.
  One program takes mean and var from running sums of y and of y² gathered block by block (20 blocks of 5000
  rows): mean = S/n, var = Q/n - mean². The other takes mean = (∑ y)/n and var = (∑ (y - mean)²)/n.
  This module names those pieces; that the two pairs agree when every y r j is a real number is proved
  in the module that imports this one.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node features: 100000 nodes, 128 channels. -/
abbrev SN : Shape := ⟨2, ![100000, 128]⟩
/-- A weight matrix, output channel by input channel. -/
abbrev SW : Shape := ⟨2, ![128, 128]⟩
/-- A per-channel vector. -/
abbrev SV : Shape := ⟨1, ![128]⟩
/-- A per-channel vector kept as one row. -/
abbrev SR : Shape := ⟨2, ![1, 128]⟩

/-- The number of nodes, as the binary32 literal both programs divide by. -/
abbrev nC : EReal := Ideal.ofBits .f32 0x47C35000#32
/-- The variance offset, as the binary32 literal both programs add. -/
abbrev eps : EReal := Ideal.ofBits .f32 0x3727C5AC#32

/-- The literal 0x47C35000 denotes the real 100000. -/
theorem nC_eq : nC = ((100000 : ℝ) : EReal) := by
  simp [nC, Ideal.ofBits, Ideal.ieee, -EReal.coe_mul]; norm_num

/-- The new feature of node `r` in channel `j`: two rectified affine maps of the node's own features `x` and of the
    aggregated features `agg`, added. The three dot products run over the 128 input channels. -/
def newf (x agg : SN.Idx → EReal) (Wrel Wroot Wres : SW.Idx → EReal) (brel bres : Fin 128 → EReal)
    (r : Fin 100000) (j : Fin 128) : EReal :=
  max (((∑ k : Fin 128, agg (ix2 r k) * Wrel (ix2 j k)) + brel j) + ∑ k : Fin 128, x (ix2 r k) * Wroot (ix2 j k)) 0
    + max ((∑ k : Fin 128, x (ix2 r k) * Wres (ix2 j k)) + bres j) 0

/-- Row `p` of block `t` (20 blocks of 5000 rows). -/
abbrev row (t : Fin 20) (p : Fin 5000) : Fin 100000 := ⟨5000 * t.val + p.val, by omega⟩

/-- Channel `j` summed over the rows of block `t`. -/
def blk (y : Fin 100000 → Fin 128 → EReal) (j : Fin 128) (t : Fin 20) : EReal :=
  ∑ p : Fin 5000, y (row t p) j

/-- The running sum after block `n`: zero plus block 0, then one block added at a time, in block order. -/
def accTo (y : Fin 100000 → Fin 128 → EReal) (j : Fin 128) : (n : ℕ) → n < 20 → EReal
  | 0, h => 0 + blk y j ⟨0, h⟩
  | n + 1, h => accTo y j n (Nat.lt_of_succ_lt h) + blk y j ⟨n + 1, h⟩

/-- The running sum after the last block. -/
def sumK (y : Fin 100000 → Fin 128 → EReal) (j : Fin 128) : EReal := accTo y j 19 (by decide)

/-- The entrywise square. -/
abbrev sq (y : Fin 100000 → Fin 128 → EReal) : Fin 100000 → Fin 128 → EReal := fun r j => y r j * y r j

/-- Mean and variance from the running sums of y and y²: S/n and Q/n - (S/n)². -/
def meanK (y : Fin 100000 → Fin 128 → EReal) (j : Fin 128) : EReal := Ideal.div (sumK y j) nC
def varK (y : Fin 100000 → Fin 128 → EReal) (j : Fin 128) : EReal :=
  Ideal.div (sumK (sq y) j) nC - meanK y j * meanK y j

/-- Channel `j` summed over all nodes. -/
def colsum (y : Fin 100000 → Fin 128 → EReal) (j : Fin 128) : EReal := ∑ r : Fin 100000, y r j

/-- Mean and variance the textbook way: (0 + ∑ y)/n and (0 + ∑ (y - mean)²)/n. -/
def meanR (y : Fin 100000 → Fin 128 → EReal) (j : Fin 128) : EReal := Ideal.div (0 + colsum y j) nC
def varR (y : Fin 100000 → Fin 128 → EReal) (j : Fin 128) : EReal :=
  Ideal.div (0 + colsum (fun r j => (y r j - meanR y j) * (y r j - meanR y j)) j) nC

/-- The normalised, scaled and shifted feature. -/
def bn (y : Fin 100000 → Fin 128 → EReal) (mean var gamma beta : Fin 128 → EReal) (r : Fin 100000) (j : Fin 128) : EReal :=
  ((y r j - mean j) * Ideal.rsqrt (var j + eps)) * gamma j + beta j

end Cert.Spec

end
-- ==== Proof.Algebra.lean ====
/-
  The algebra that joins the two programs, over an abstract table y of new features.

  The running sum taken block by block (20 blocks of 5000 rows, one block added at a time to a zero start) is
  the sum over all 100000 rows: addition of extended reals is associative and commutative, so this is pure
  regrouping and needs no finiteness. The two means then agree outright. The two variances,
      Q/n - (S/n)²   and   (∑ (y - S/n)²)/n,
  agree when every entry of y is a real number (at an infinite entry the first reads ⊤ - ⊤); there the identity
  is the textbook one, proved over the reals and carried back along the coercion. Finally the new feature
  itself is real when every argument entry is: it is built from finite sums, products, sums and maxima with 0.
-/
import proofs.«105549_j2010044694725_1_alg».proof.Proof.Spec
import Mathlib.Algebra.BigOperators.Fin
import Mathlib.Algebra.BigOperators.Ring.Finset
import Mathlib.Algebra.BigOperators.Group.Finset.Sigma
import Mathlib.Logic.Equiv.Fin.Basic
import Mathlib.Data.EReal.Operations
import Mathlib.Tactic.FieldSimp
import Mathlib.Tactic.Ring
import Mathlib.Tactic.NormNum

noncomputable section

open scoped BigOperators

namespace Cert.Spec

open Idealize.ShloMosaic Idealize.ShloMosaic.ValueIdx

/-! ### Real-valued extended reals are closed under the operations used -/

theorem real_add {p q : EReal} (hp : ∃ a : ℝ, p = (a : EReal)) (hq : ∃ a : ℝ, q = (a : EReal)) :
    ∃ a : ℝ, p + q = (a : EReal) := by
  obtain ⟨a, rfl⟩ := hp
  obtain ⟨b, rfl⟩ := hq
  exact ⟨a + b, (EReal.coe_add a b).symm⟩

theorem real_mul {p q : EReal} (hp : ∃ a : ℝ, p = (a : EReal)) (hq : ∃ a : ℝ, q = (a : EReal)) :
    ∃ a : ℝ, p * q = (a : EReal) := by
  obtain ⟨a, rfl⟩ := hp
  obtain ⟨b, rfl⟩ := hq
  exact ⟨a * b, (EReal.coe_mul a b).symm⟩

/-- The maximum of a real and 0 is one of the two. -/
theorem real_max_zero {p : EReal} (hp : ∃ a : ℝ, p = (a : EReal)) : ∃ a : ℝ, max p 0 = (a : EReal) := by
  obtain ⟨a, rfl⟩ := hp
  rcases le_total ((a : ℝ) : EReal) 0 with h | h
  · exact ⟨0, by rw [max_eq_right h, EReal.coe_zero]⟩
  · exact ⟨a, by rw [max_eq_left h]⟩

/-- A finite sum of reals is real. -/
theorem sum_real {ι : Type} (s : Finset ι) (f : ι → EReal) (h : ∀ i ∈ s, ∃ a : ℝ, f i = (a : EReal)) :
    ∃ a : ℝ, ∑ i ∈ s, f i = (a : EReal) := by
  classical
  induction s using Finset.induction_on with
  | empty => exact ⟨0, by rw [Finset.sum_empty, EReal.coe_zero]⟩
  | insert i s hi ih =>
    rw [Finset.sum_insert hi]
    exact real_add (h i (Finset.mem_insert_self i s)) (ih fun k hk => h k (Finset.mem_insert_of_mem hk))

/-- The coercion from the reals commutes with finite sums. -/
theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert i s hi ih => rw [Finset.sum_insert hi, Finset.sum_insert hi, EReal.coe_add, ih]

/-! ### The running sum is the column sum -/

/-- After block `n` the running sum is zero plus the sum of blocks 0 … n. -/
theorem accTo_eq (y : Fin 100000 → Fin 128 → EReal) (j : Fin 128) :
    ∀ (n : ℕ) (h : n < 20), accTo y j n h
      = 0 + ∑ t ∈ Finset.range (n + 1), (if ht : t < 20 then blk y j ⟨t, ht⟩ else 0)
  | 0, h => by
    rw [accTo, Finset.sum_range_one, dif_pos h]
  | n + 1, h => by
    rw [accTo, accTo_eq y j n (Nat.lt_of_succ_lt h), Finset.sum_range_succ _ (n + 1), dif_pos h, add_assoc]

/-- The 100000 rows are the 20 × 5000 pairs (block, row in block), through `row`. -/
theorem colsum_blocks (y : Fin 100000 → Fin 128 → EReal) (j : Fin 128) :
    colsum y j = ∑ t : Fin 20, blk y j t := by
  unfold colsum blk
  rw [← Fintype.sum_prod_type' (f := fun (t : Fin 20) (p : Fin 5000) => y (row t p) j)]
  symm
  refine Fintype.sum_equiv (finProdFinEquiv.trans (finCongr (by norm_num : 20 * 5000 = 100000))) _ _ ?_
  rintro ⟨t, p⟩
  have hrow : row t p = (finProdFinEquiv.trans (finCongr (by norm_num : 20 * 5000 = 100000))) (t, p) := by
    apply Fin.ext
    simp only [Equiv.trans_apply, finProdFinEquiv_apply_val, finCongr_apply, Fin.coe_cast]
    omega
  rw [hrow]

theorem sumK_eq (y : Fin 100000 → Fin 128 → EReal) (j : Fin 128) : sumK y j = 0 + colsum y j := by
  unfold sumK
  rw [accTo_eq, colsum_blocks, ← Fin.sum_univ_eq_sum_range (fun t => if ht : t < 20 then blk y j ⟨t, ht⟩ else 0) 20]
  refine congrArg (fun s => 0 + s) (Finset.sum_congr rfl fun t _ => ?_)
  rw [dif_pos t.isLt]

theorem meanK_eq (y : Fin 100000 → Fin 128 → EReal) (j : Fin 128) : meanK y j = meanR y j := by
  unfold meanK meanR
  rw [sumK_eq]

/-! ### The two variances -/

/-- Over the reals: Q/c - (S/c)² = (∑ (a - S/c)²)/c when c is the number of terms. -/
theorem real_var {ι : Type} [Fintype ι] (a : ι → ℝ) (c : ℝ) (hc : (Fintype.card ι : ℝ) = c) (h0 : c ≠ 0) :
    (∑ r, a r * a r) * (1 / c) - (∑ r, a r) * (1 / c) * ((∑ r, a r) * (1 / c))
      = (∑ r, (a r - (∑ r, a r) * (1 / c)) * (a r - (∑ r, a r) * (1 / c))) * (1 / c) := by
  have hexp : ∀ m : ℝ, ∑ r, (a r - m) * (a r - m)
      = (∑ r, a r * a r) - 2 * m * (∑ r, a r) + c * (m * m) := by
    intro m
    have : ∀ r, (a r - m) * (a r - m) = a r * a r - 2 * m * a r + m * m := fun r => by ring
    rw [Finset.sum_congr rfl fun r _ => this r, Finset.sum_add_distrib, Finset.sum_sub_distrib,
      ← Finset.mul_sum, Finset.sum_const, Finset.card_univ, nsmul_eq_mul, hc]
  rw [hexp]
  field_simp
  ring

theorem varK_eq (y : Fin 100000 → Fin 128 → EReal) (hy : ∀ r j, ∃ a : ℝ, y r j = (a : EReal)) (j : Fin 128) :
    varK y j = varR y j := by
  have hj : ∀ r, ∃ a : ℝ, y r j = (a : EReal) := fun r => hy r j
  choose a ha using hj
  have hc : (100000 : ℝ) ≠ 0 := by norm_num
  have hcard : (Fintype.card (Fin 100000) : ℝ) = 100000 := by
    rw [Fintype.card_fin, Nat.cast_ofNat]
  have hmean : meanR y j = (((∑ r, a r) * (1 / 100000) : ℝ) : EReal) := by
    unfold meanR colsum
    rw [zero_add, nC_eq, Ideal.div_coe hc, Finset.sum_congr rfl fun r _ => ha r, coe_sum, ← EReal.coe_mul]
  have hQ : colsum (sq y) j = ((∑ r, a r * a r : ℝ) : EReal) := by
    unfold colsum
    rw [← coe_sum]
    refine Finset.sum_congr rfl fun r _ => ?_
    rw [EReal.coe_mul, ← ha r]
  have hD : colsum (fun r j => (y r j - meanR y j) * (y r j - meanR y j)) j
      = ((∑ r, (a r - (∑ r, a r) * (1 / 100000)) * (a r - (∑ r, a r) * (1 / 100000)) : ℝ) : EReal) := by
    unfold colsum
    rw [← coe_sum]
    refine Finset.sum_congr rfl fun r _ => ?_
    show (y r j - meanR y j) * (y r j - meanR y j) = _
    rw [hmean, ha r, ← EReal.coe_sub, ← EReal.coe_mul]
  unfold varK varR
  rw [meanK_eq, sumK_eq, hQ, hD, hmean, zero_add, zero_add, nC_eq, Ideal.div_coe hc, Ideal.div_coe hc,
    ← EReal.coe_mul, ← EReal.coe_mul, ← EReal.coe_mul, ← EReal.coe_sub, real_var a 100000 hcard hc]

/-! ### The new feature is real on real arguments -/

theorem newf_real (x agg : SN.Idx → EReal) (Wrel Wroot Wres : SW.Idx → EReal) (brel bres : Fin 128 → EReal)
    (hx : ∀ i, ∃ a : ℝ, x i = (a : EReal)) (hagg : ∀ i, ∃ a : ℝ, agg i = (a : EReal))
    (hWrel : ∀ i, ∃ a : ℝ, Wrel i = (a : EReal)) (hWroot : ∀ i, ∃ a : ℝ, Wroot i = (a : EReal))
    (hWres : ∀ i, ∃ a : ℝ, Wres i = (a : EReal))
    (hbrel : ∀ j, ∃ a : ℝ, brel j = (a : EReal)) (hbres : ∀ j, ∃ a : ℝ, bres j = (a : EReal)) :
    ∀ r j, ∃ a : ℝ, newf x agg Wrel Wroot Wres brel bres r j = (a : EReal) := by
  intro r j
  unfold newf
  exact real_add
    (real_max_zero (real_add
      (real_add (sum_real _ _ fun k _ => real_mul (hagg _) (hWrel _)) (hbrel j))
      (sum_real _ _ fun k _ => real_mul (hx _) (hWroot _))))
    (real_max_zero (real_add (sum_real _ _ fun k _ => real_mul (hx _) (hWres _)) (hbres j)))

end Cert.Spec

end
-- ==== Proof.KAgg.lean ====
/-
  The aggregated neighbour features, as one function of the node features and the edge list.

  Edge e runs from node src e to node dst e (rows 0 and 1 of the edge array). A negative source index is
  shifted up by the number of nodes; the source's feature row is then read at that index (read signed and
  clamped into range), and the rows so gathered are added into a zero array at the rows dst names: row i of the
  result is the sum of the gathered rows of the edges whose destination is i, an edge whose destination is
  out of range adding nothing. Both programs compute this array with the same operations before anything else;
  here it is one definition, so that what follows can cite it without opening it.
-/
import proofs.«105549_j2010044694725_1_alg».proof.Proof.Gen.KernelIdeal

noncomputable section

namespace Cert.KernelIdeal.Agg

open Cert.KernelIdeal Idealize.ShloMosaic

open Facts₀ Facts

variable {F : FTy → Type} [FloatOps F]

/-- Row `k` of the edge array as a flat vector of 1600000 node indices. -/
def edgeRow0 (e : IVec S2x1600000 32) : IVec S1600000 32 :=
  shapeCast S1600000 (extractStridedSlice S1x1600000 ![0, 0] e slices_S2x1600000_S1x1600000_0_0) shapeCasts_S1x1600000_S1600000
def edgeRow1 (e : IVec S2x1600000 32) : IVec S1600000 32 :=
  shapeCast S1600000 (extractStridedSlice S1x1600000 ![1, 0] e slices_S2x1600000_S1x1600000_1_0) shapeCasts_S1x1600000_S1600000

/-- The source indices, a negative one shifted up by the number of nodes, as a column of start indices. -/
def srcIdx (e : IVec S2x1600000 32) : IVec S1600000x1 32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The destination indices as a column of scatter indices. -/
def dstIdx (e : IVec S2x1600000 32) : IVec S1600000x1 32 :=
  broadcastInDim S1600000x1 ![0] bcast_S1600000_S1600000x1_0 (edgeRow1 e)

/-- One feature row per edge: the source node's. -/
def gathered (x : FVec F S100000x128 .f32) (e : IVec S2x1600000 32) : FVec F S1600000x128 .f32 :=
  Host.gather gather_S100000x128_S1600000x1_S1600000x128_1_0_n_n_0_1_1128 x (srcIdx e)

/-- The aggregated features: the gathered rows added into a zero array at the destination rows. -/
def agg (x : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstIdx e) (gathered x e)

end Cert.KernelIdeal.Agg

end
-- ==== Proof.Finite.lean ====
/-
  Finiteness.

  The precondition evaluates, for each of the eight float argument arrays, the conjunction over all entries of
  |entry| < +∞, and says the conjunction of the eight results is true. Over the extended reals |x| < +∞ fails at
  both infinities and holds at every real, so each entry of each float argument is a real number.

  The aggregated neighbour features are a zero array into which gathered rows of the node features are added:
  each entry is zero plus a finite sum of entries of the node features, so it is real when they are.
-/
import proofs.«105549_j2010044694725_1_alg».proof.Defs
import proofs.«105549_j2010044694725_1_alg».proof.Proof.Gen.Pre_finite_inputs
import proofs.«105549_j2010044694725_1_alg».proof.Proof.Gen.KernelIdeal
import proofs.«105549_j2010044694725_1_alg».proof.Proof.KAgg
import Idealize.ShloMosaic.Lib.ReduceAll
import Idealize.ShloMosaic.Lib.ValueIdx

noncomputable section

open scoped BigOperators

namespace Cert.Finite

open Idealize.ShloMosaic Idealize.SL.Sem

/-! ## One entry -/

/-- The binary32 pattern 0x7F800000 (exponent all ones, fraction zero, sign clear) denotes +∞. -/
theorem inf_eq : Ideal.ofBits .f32 0x7F800000#32 = (⊤ : EReal) := by
  simp [Ideal.ofBits, Ideal.ieee]

/-- The binary32 pattern 0 denotes the real 0. -/
theorem zero_eq : Ideal.ofBits .f32 0x00000000#32 = ((0 : ℝ) : EReal) := by
  simp [Ideal.ofBits, Ideal.ieee]

/-- An extended real whose absolute value max x (-x) compares strictly below +∞ is a real number:
    at +∞ and at -∞ the absolute value is +∞ itself and the strict comparison fails. -/
theorem real_of_abs_lt (x : EReal)
    (h : Ideal.cmp .olt (max x (-x)) (Ideal.ofBits .f32 0x7F800000#32) = 1#1) : ∃ a : ℝ, x = (a : EReal) := by
  rw [inf_eq] at h
  induction x using EReal.rec with
  | bot => simp [Ideal.cmp] at h
  | coe a => exact ⟨a, rfl⟩
  | top => simp [Ideal.cmp] at h

/-! ## One array -/

/-- The rank-zero shape has one index. -/
local instance subsingleton_S_ : Subsingleton Cert.Pre_finite_inputs.S_.Idx := ⟨fun a b => funext fun d => d.elim0⟩

/-- If the conjunction over all entries of |x i| < +∞ is true, every entry of x is a real number. -/
theorem all_real {S : Shape} {axes : List (Fin S.rank)} (x : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf (F := Ideal) (φ := .f32) .olt (Host.absf (F := Ideal) (φ := .f32) x)
            (broadcastInDim S ![] hb (constant (F := Ideal) Cert.Pre_finite_inputs.S_ .f32 0x7F800000#32)))
          (constantI Cert.Pre_finite_inputs.S_ 1 1#1) hr hu ValueIdx.ix0 = 1#1) (i : S.Idx) :
    ∃ a : ℝ, x i = (a : EReal) :=
  real_of_abs_lt (x i) (Host.reduce_andi_all _ _ hr hu _ e i)

/-! ## The eight arrays -/

open Cert.Pre_finite_inputs in
/-- The precondition's predicate read back: if it is true of the nine arrays, each of the eight float arrays holds real numbers.
    The predicate is the conjunction, nested to the left, of the eight per-array conjunctions. -/
theorem fn_real (x0 : FVec Ideal S100000x128 .f32) (e : IVec S2x1600000 32) (x2 : FVec Ideal S128x128 .f32)
    (x3 : FVec Ideal S128 .f32) (x4 x5 : FVec Ideal S128x128 .f32) (x6 x7 x8 : FVec Ideal S128 .f32)
    (h : Cert.Pre_finite_inputs.fn (F := Ideal) x0 e x2 x3 x4 x5 x6 x7 x8 = fun _ => 1#1) :
    (∀ i, ∃ a : ℝ, x0 i = (a : EReal)) ∧ (∀ i, ∃ a : ℝ, x2 i = (a : EReal)) ∧ (∀ i, ∃ a : ℝ, x3 i = (a : EReal))
      ∧ (∀ i, ∃ a : ℝ, x4 i = (a : EReal)) ∧ (∀ i, ∃ a : ℝ, x5 i = (a : EReal)) ∧ (∀ i, ∃ a : ℝ, x6 i = (a : EReal))
      ∧ (∀ i, ∃ a : ℝ, x7 i = (a : EReal)) ∧ (∀ i, ∃ a : ℝ, x8 i = (a : EReal)) := by
  have h0 := congrFun h ValueIdx.ix0
  dsimp only [Cert.Pre_finite_inputs.fn, Cert.Pre_finite_inputs.fn_part1, Cert.Pre_finite_inputs.fn_part2, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨all_real x0 _ _ _ h0, all_real x2 _ _ _ h2, all_real x3 _ _ _ h3, all_real x4 _ _ _ h4,
    all_real x5 _ _ _ h5, all_real x6 _ _ _ h6, all_real x7 _ _ _ h7, all_real x8 _ _ _ h8⟩

/-- Under the precondition every entry of every float argument is a real number. -/
theorem pre_real (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ a : ℝ, (m ((c.tc : Thread Cert.KernelIdeal.nD Cert.KernelIdeal.τ).loc Cert.KernelIdeal.main_arg0) : Cert.KernelIdeal.S100000x128.Idx → EReal) i = (a : EReal))
    ∧ (∀ i, ∃ a : ℝ, (m ((c.tc : Thread Cert.KernelIdeal.nD Cert.KernelIdeal.τ).loc Cert.KernelIdeal.main_arg2) : Cert.KernelIdeal.S128x128.Idx → EReal) i = (a : EReal))
    ∧ (∀ i, ∃ a : ℝ, (m ((c.tc : Thread Cert.KernelIdeal.nD Cert.KernelIdeal.τ).loc Cert.KernelIdeal.main_arg3) : Cert.KernelIdeal.S128.Idx → EReal) i = (a : EReal))
    ∧ (∀ i, ∃ a : ℝ, (m ((c.tc : Thread Cert.KernelIdeal.nD Cert.KernelIdeal.τ).loc Cert.KernelIdeal.main_arg4) : Cert.KernelIdeal.S128x128.Idx → EReal) i = (a : EReal))
    ∧ (∀ i, ∃ a : ℝ, (m ((c.tc : Thread Cert.KernelIdeal.nD Cert.KernelIdeal.τ).loc Cert.KernelIdeal.main_arg5) : Cert.KernelIdeal.S128x128.Idx → EReal) i = (a : EReal))
    ∧ (∀ i, ∃ a : ℝ, (m ((c.tc : Thread Cert.KernelIdeal.nD Cert.KernelIdeal.τ).loc Cert.KernelIdeal.main_arg6) : Cert.KernelIdeal.S128.Idx → EReal) i = (a : EReal))
    ∧ (∀ i, ∃ a : ℝ, (m ((c.tc : Thread Cert.KernelIdeal.nD Cert.KernelIdeal.τ).loc Cert.KernelIdeal.main_arg7) : Cert.KernelIdeal.S128.Idx → EReal) i = (a : EReal))
    ∧ (∀ i, ∃ a : ℝ, (m ((c.tc : Thread Cert.KernelIdeal.nD Cert.KernelIdeal.τ).loc Cert.KernelIdeal.main_arg8) : Cert.KernelIdeal.S128.Idx → EReal) i = (a : EReal)) :=
  fn_real _ _ _ _ _ _ _ _ _ (h c)

/-! ## The aggregated array -/

/-- A finite sum of real numbers is a real number. -/
theorem sum_real' {ι : Type} (s : Finset ι) (f : ι → EReal) (hf : ∀ j, ∃ a : ℝ, f j = (a : EReal)) :
    ∃ a : ℝ, ∑ j ∈ s, f j = (a : EReal) := by
  classical
  induction s using Finset.induction_on with
  | empty => exact ⟨0, by rw [Finset.sum_empty, EReal.coe_zero]⟩
  | insert j s hj ih =>
    obtain ⟨a, ha⟩ := ih
    obtain ⟨b, hb⟩ := hf j
    exact ⟨b + a, by rw [Finset.sum_insert hj, ha, hb, EReal.coe_add]⟩

/-- An accumulating scatter of real updates into a real array is real: each entry is the operand's entry plus
    the finite sum of the updates that land on it. -/
theorem scatter_real {s si su : Shape} (d : ScatterDims s si su) {w : Nat} (x : s.Idx → EReal) (idx : IVec si w)
    (upd : su.Idx → EReal) (hx : ∀ i, ∃ a : ℝ, x i = (a : EReal)) (hu : ∀ j, ∃ a : ℝ, upd j = (a : EReal)) (i : s.Idx) :
    ∃ a : ℝ, Ideal.hostScatterAdd d x idx upd i = (a : EReal) := by
  unfold Ideal.hostScatterAdd
  obtain ⟨a, ha⟩ := hx i
  obtain ⟨b, hb⟩ := sum_real' (Finset.univ.filter fun j => d.resultIdx? j idx = some i) upd hu
  exact ⟨a + b, by rw [ha, hb, EReal.coe_add]⟩

/-- The same of the host's accumulating scatter as the programs name it. -/
theorem hostScatter_real {s si su : Shape} (d : ScatterDims s si su) {w : Nat} (x : FVec Ideal s .f32) (idx : IVec si w)
    (upd : FVec Ideal su .f32) (hx : ∀ i, ∃ a : ℝ, x i = (a : EReal)) (hu : ∀ j, ∃ a : ℝ, upd j = (a : EReal)) (i : s.Idx) :
    ∃ a : ℝ, Host.scatterAdd d x idx upd i = (a : EReal) :=
  scatter_real d x idx upd hx hu i

/-- A gather of a real array is real: each entry is one of the operand's. -/
theorem gather_real {s si t : Shape} {w : Nat} (d : GatherDims s si t) (x : s.Idx → EReal) (idx : IVec si w)
    (hx : ∀ i, ∃ a : ℝ, x i = (a : EReal)) (j : t.Idx) : ∃ a : ℝ, Host.gather d x idx j = (a : EReal) :=
  hx (d.operandIdx j idx)

/-- The splat of one bit pattern over a shape, read at an index. -/
theorem splat_apply {S : Shape} (hb : Cert.KernelIdeal.S_.BroadcastsInDim S (![] : Fin 0 → Fin S.rank)) (b : BitVec 32)
    (i : S.Idx) : broadcastInDim S ![] hb (constant (F := Ideal) Cert.KernelIdeal.S_ .f32 b) i = Ideal.ofBits .f32 b := rfl

/-- The aggregated array of real features is real: each entry is zero plus a finite sum of gathered feature entries. -/
theorem agg_real (x : Cert.KernelIdeal.S100000x128.Idx → EReal) (e : IVec Cert.KernelIdeal.S2x1600000 32) (hx : ∀ i, ∃ a : ℝ, x i = (a : EReal)) :
    ∀ i, ∃ a : ℝ, Cert.KernelIdeal.Agg.agg (F := Ideal) x e i = (a : EReal) := by
  intro i
  unfold Cert.KernelIdeal.Agg.agg Cert.KernelIdeal.Agg.gathered
  exact hostScatter_real _ _ _ _ (fun k => ⟨0, (splat_apply _ _ k).trans zero_eq⟩) (gather_real _ x _ hx) i

end Cert.Finite

end
-- ==== Proof.KPieces.lean ====
/-
  What each case of the first kernel's body leaves in its three output buffers, as values.

  The body stores the block of new features once, whole; at the first grid point it first stores zero rows into the two
  accumulator buffers and reads them back, at every other point it reads what the point before left there; then it
  stores each accumulator once, whole: the row read plus the block's column sums (of the block, of its squares).
  So every output buffer ends at its last whole store, a function of the input blocks and of the row read.
-/
import proofs.«105549_j2010044694725_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- The zero offsets of every load and store of the body, however spelt. -/
theorem hz : (![0, 0] : Fin 2 → Nat) = fun _ => 0 := funext fun a => by fin_cases a <;> rfl

/-- The first grid point: the block of new features. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond0_0 i)
    (x0 x1 : Vec F S5000x128 .f32) (x2 : Vec F S128x128 .f32) (x3 : Vec F S1x128 .f32) (x4 x5 : Vec F S128x128 .f32) (x6 : Vec F S1x128 .f32) :
    out0_A_7 c i a1 h1 a2 h2 a3 h3 a4 h4 a5 h5 a6 h6 a7 h7 a8 h8 a9 h9 a10 h10 hc x0 x1 x2 x3 x4 x5 x6 = k0_pay5 x0 x1 x2 x4 x5 x3 x6 := by
  -- one store, through the whole-block rectangle at zero offsets: the buffer ends at that store's payload
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  -- each of the seven loads reads a whole input buffer through the same rectangle: it reads the buffer's contents
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

/-- The first grid point: the zero row plus the block's column sums. -/
theorem out_A_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond0_0 i)
    (x0 x1 : Vec F S5000x128 .f32) (x2 : Vec F S128x128 .f32) (x3 : Vec F S1x128 .f32) (x4 x5 : Vec F S128x128 .f32) (x6 : Vec F S1x128 .f32) :
    out0_A_8 c i a1 h1 a2 h2 a3 h3 a4 h4 a5 h5 a6 h6 a7 h7 a8 h8 a9 h9 a10 h10 hc x0 x1 x2 x3 x4 x5 x6 = k0_pay1 (k0_pay5 x0 x1 x2 x4 x5 x3 x6) (k0_pay3 (F := F)) := by
  -- two stores, both through the whole-row rectangle: the later one (the sum) overwrites the zero row entirely,
  -- and the row it adds to is the zero row read back after the first store
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

/-- The first grid point: the zero row plus the column sums of the block's squares. -/
theorem out_A_9 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond0_0 i)
    (x0 x1 : Vec F S5000x128 .f32) (x2 : Vec F S128x128 .f32) (x3 : Vec F S1x128 .f32) (x4 x5 : Vec F S128x128 .f32) (x6 : Vec F S1x128 .f32) :
    out0_A_9 c i a1 h1 a2 h2 a3 h3 a4 h4 a5 h5 a6 h6 a7 h7 a8 h8 a9 h9 a10 h10 hc x0 x1 x2 x3 x4 x5 x6 = k0_pay2 (k0_pay5 x0 x1 x2 x4 x5 x3 x6) (k0_pay4 (F := F)) := by
  -- as for the column sums: the later store covers, the row added to is the zero row read back
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

/-- A later grid point: the block of new features. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond0_0 i)
    (x0 x1 : Vec F S5000x128 .f32) (x2 : Vec F S128x128 .f32) (x3 : Vec F S1x128 .f32) (x4 x5 : Vec F S128x128 .f32) (x6 : Vec F S1x128 .f32) (xo8 xo9 : Vec F S1x128 .f32) :
    out0_B_7 c i a1 h1 a2 h2 a3 h3 a4 h4 a5 h5 a6 h6 a7 h7 a8 h8 a9 h9 a10 h10 hc x0 x1 x2 x3 x4 x5 x6 xo8 xo9 = k0_pay5 x0 x1 x2 x4 x5 x3 x6 := by
  -- one store through the whole-block rectangle; the loads read the whole input buffers
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x128) hz, View.ld_unit_zero (S := S128x128) hz, View.ld_unit_zero (S := S1x128) hz]

/-- A later grid point: the row the point before left plus the block's column sums. -/
theorem out_B_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond0_0 i)
    (x0 x1 : Vec F S5000x128 .f32) (x2 : Vec F S128x128 .f32) (x3 : Vec F S1x128 .f32) (x4 x5 : Vec F S128x128 .f32) (x6 : Vec F S1x128 .f32) (xo8 xo9 : Vec F S1x128 .f32) :
    out0_B_8 c i a1 h1 a2 h2 a3 h3 a4 h4 a5 h5 a6 h6 a7 h7 a8 h8 a9 h9 a10 h10 hc x0 x1 x2 x3 x4 x5 x6 xo8 xo9 = k0_pay1 (k0_pay5 x0 x1 x2 x4 x5 x3 x6) xo8 := by
  -- one store through the whole-row rectangle; the row added to is the buffer's running contents, read whole
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h9.read_unread, View.ld_unit_zero (S := S5000x128) hz, View.ld_unit_zero (S := S128x128) hz, View.ld_unit_zero (S := S1x128) hz]

/-- A later grid point: the row the point before left plus the column sums of the block's squares. -/
theorem out_B_9 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond0_0 i)
    (x0 x1 : Vec F S5000x128 .f32) (x2 : Vec F S128x128 .f32) (x3 : Vec F S1x128 .f32) (x4 x5 : Vec F S128x128 .f32) (x6 : Vec F S1x128 .f32) (xo8 xo9 : Vec F S1x128 .f32) :
    out0_B_9 c i a1 h1 a2 h2 a3 h3 a4 h4 a5 h5 a6 h6 a7 h7 a8 h8 a9 h9 a10 h10 hc x0 x1 x2 x3 x4 x5 x6 xo8 xo9 = k0_pay2 (k0_pay5 x0 x1 x2 x4 x5 x3 x6) xo9 := by
  -- one store through the whole-row rectangle; the row added to is the buffer's running contents, read whole
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    h10.read_unread, View.ld_unit_zero (S := S5000x128) hz, View.ld_unit_zero (S := S128x128) hz, View.ld_unit_zero (S := S1x128) hz]

end Cert.KernelIdeal.Pieces

end
-- ==== Proof.KPay.lean ====
/-
  The first kernel's arithmetic read at an index, over the extended reals.

  The body computes, from a block of 5000 rows of the node features `xf` and of the aggregated features `xa`, the three
  weight matrices and the two bias rows, the block of new features
      max (xa·Wrelᵀ + brel + xf·Wrootᵀ) 0 + max (xf·Wresᵀ + bres) 0
  (a narrowing of the float format is the identity here, and a matrix product into a zero accumulator is the plain sum
  over the 128 input channels), and adds to a running row its column sums, and to another the column sums of its squares.
-/
import proofs.«105549_j2010044694725_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The matrix product read at an index

The product contracts the left operand's axis 1 with the right operand's axis 0; the result's row is the left operand's
row and its column the right operand's column. -/

/-- The left operand's row is the result's row. -/
theorem lhs_dot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction coordinate. -/
theorem lhs_dot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction coordinate. -/
theorem rhs_dot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the result's column. -/
theorem rhs_dot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator, at row `p` and column `q`: the sum over the 128 contracted channels. -/
theorem matmul_at (lhs : FVec Ideal S5000x128 .bf16) (rhs : FVec Ideal S128x128 .bf16) (p : Fin 5000) (q : Fin 128) :
    matmul (F := Ideal) dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The layout operations read at an index -/

/-- A weight matrix, narrowed and transposed, at `(k, q)` is the matrix at `(q, k)`. -/
theorem weight_at (w : S128x128.Idx → EReal) (k q : Fin 128) :
    transpose S128x128 [1, 0] (truncf (F := Ideal) .bf16 w bitsLt_bf16_f32) transposes_S128x128_p1_0_S128x128 (ix2 k q)
      = w (ix2 q k) :=
  transpose_ix2_apply _ transposes_S128x128_p1_0_S128x128 k q

/-- A block times a transposed weight matrix, at row `p` and output channel `q`: the row of the block against row `q`
    of the matrix. -/
theorem product_at (x : S5000x128.Idx → EReal) (w : S128x128.Idx → EReal) (p : Fin 5000) (q : Fin 128) :
    matmul (F := Ideal) dot_S5000x128_S128x128_S5000x128_1_0_0_1_n_n none (truncf (F := Ideal) .bf16 x bitsLt_bf16_f32)
        (transpose S128x128 [1, 0] (truncf (F := Ideal) .bf16 w bitsLt_bf16_f32) transposes_S128x128_p1_0_S128x128)
        (constant (F := Ideal) S5000x128 .f32 0x00000000#32) (ix2 p q)
      = ∑ k : Fin 128, x (ix2 p k) * w (ix2 q k) := by
  rw [matmul_at]
  exact Finset.sum_congr rfl fun k _ => congrArg (x (ix2 p k) * ·) (weight_at w k q)

/-- A bias row repeated over the 5000 rows of a block reads, at `(p, q)`, the row at `q`. -/
theorem rows_at {α : Type} (b : S1x128.Idx → α) (p : Fin 5000) (q : Fin 128) :
    broadcastTo S5000x128 b broadcasts_S1x128_S5000x128 (ix2 p q) = b (ix2 0 q) :=
  broadcastTo_1b_ab_apply b broadcasts_S1x128_S5000x128 p q

/-- A vector of 128 channels viewed as one row reads, at `(0, q)`, the vector at `q`. -/
theorem row_of_vec_at {α : Type} (v : S128.Idx → α) (q : Fin 128) :
    shapeCast S1x128 v shapeCasts_S128_S1x128 (ix2 0 q) = v (ix1 q) :=
  shapeCast_a_1a_apply v shapeCasts_S128_S1x128 0 q

/-- The sum of a block over its 5000 rows, at channel `q`. -/
theorem colsum_at (v : FVec Ideal S5000x128 .f32) (q : Fin 128) :
    multiReduction (F := Ideal) .add [0] S128 v 0x00000000#32 reduces_S5000x128_S128 (.inl rfl) rfl (ix1 q)
      = ∑ p : Fin 5000, v (ix2 p q) := by
  refine (Ideal.multiReduction_add_single v 0x00000000#32 reduces_S5000x128_S128 (.inl rfl) rfl (ix1 q)).trans ?_
  refine Finset.sum_congr rfl fun p _ => congrArg v ?_
  funext a
  match a with
  | ⟨0, _⟩ => rfl
  | ⟨1, _⟩ => rfl

/-- The binary32 zero word is the extended real zero. -/
theorem zero_word : FloatOps.ofBits (F := Ideal) .f32 0x00000000#32 = 0 :=
  (Ideal.ofBits_def _).trans Ideal.ofBits_zero_f32

/-! ## The payloads -/

/-- The block of new features at row `p`, channel `q`. -/
theorem pay5_apply (xf xa : S5000x128.Idx → EReal) (wrel wroot wres : S128x128.Idx → EReal) (brel bres : S1x128.Idx → EReal)
    (p : Fin 5000) (q : Fin 128) :
    k0_pay5 (F := Ideal) xf xa wrel wroot wres brel bres (ix2 p q)
      = max (((∑ k : Fin 128, xa (ix2 p k) * wrel (ix2 q k)) + brel (ix2 0 q)) + ∑ k : Fin 128, xf (ix2 p k) * wroot (ix2 q k)) 0
        + max ((∑ k : Fin 128, xf (ix2 p k) * wres (ix2 q k)) + bres (ix2 0 q)) 0 := by
  unfold k0_pay5
  simp only [addf_apply, maximumf_apply, broadcast_apply, shapeCast_self, rows_at, zero_word]
  rw [product_at, product_at, product_at]

/-- The running row of column sums after one more block `v`. -/
theorem pay1_apply (v : S5000x128.Idx → EReal) (a : S1x128.Idx → EReal) (q : Fin 128) :
    k0_pay1 (F := Ideal) v a (ix2 0 q) = a (ix2 0 q) + ∑ p : Fin 5000, v (ix2 p q) := by
  unfold k0_pay1
  simp only [addf_apply, shapeCast_self, row_of_vec_at]
  rw [colsum_at]

/-- The running row of column sums of squares after one more block `v`. -/
theorem pay2_apply (v : S5000x128.Idx → EReal) (a : S1x128.Idx → EReal) (q : Fin 128) :
    k0_pay2 (F := Ideal) v a (ix2 0 q) = a (ix2 0 q) + ∑ p : Fin 5000, v (ix2 p q) * v (ix2 p q) := by
  unfold k0_pay2
  simp only [addf_apply, shapeCast_self, row_of_vec_at]
  rw [colsum_at]
  simp only [mulf_apply]

/-- The rows the first block starts from are zero. -/
theorem pay3_apply (i : S1x128.Idx) : k0_pay3 (F := Ideal) i = 0 := by
  unfold k0_pay3
  exact zero_word
theorem pay4_apply (i : S1x128.Idx) : k0_pay4 (F := Ideal) i = 0 := by
  unfold k0_pay4
  exact zero_word

end Cert.KernelIdeal.Pay

end
-- ==== Proof.KStage1.lean ====
/-
  The first kernel's region, read as values: what its three result arrays hold after the last grid point.

  The region runs 20 points; point t stages rows 5000·t … 5000·t+4999 of the node features and of the aggregated
  features, and the weight matrices and bias rows whole. Its body leaves in the first output buffer the block of new
  features of those rows, and in the two accumulator rows what they held plus the block's column sums (of the block, of
  its squares), starting from zero rows at point 0. The first output is written back at every point, to the same rows;
  the accumulators' one block never moves and is written back once, after point 19.
  So the first result array is the new features of all 100000 rows, and the two accumulator arrays are the running
  sums over the 20 blocks, in block order.
-/
import proofs.«105549_j2010044694725_1_alg».proof.Proof.Gen.KernelIdeal.Frame
import proofs.«105549_j2010044694725_1_alg».proof.Proof.Spec
import proofs.«105549_j2010044694725_1_alg».proof.Proof.KPieces
import proofs.«105549_j2010044694725_1_alg».proof.Proof.KPay
import Idealize.ShloMosaic.Lib.Pipeline.Value
import Idealize.ShloMosaic.Lib.ValueIdx

noncomputable section

open scoped BigOperators

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays and the blocks, by their literal types -/

/-- The node features, the aggregated features, the three weight matrices and the two bias rows, as the region finds them. -/
abbrev xArr (c : Dev nD) : S100000x128.Idx → EReal := V c main_arg0
abbrev aArr (c : Dev nD) : S100000x128.Idx → EReal := V c main_v13
abbrev wRel (c : Dev nD) : S128x128.Idx → EReal := V c main_arg2
abbrev bRel (c : Dev nD) : S1x128.Idx → EReal := V c main_v14
abbrev wRoot (c : Dev nD) : S128x128.Idx → EReal := V c main_arg4
abbrev wRes (c : Dev nD) : S128x128.Idx → EReal := V c main_arg5
abbrev bRes (c : Dev nD) : S1x128.Idx → EReal := V c main_v15

/-- The seven input blocks at point `t`. -/
abbrev xBlk (c : Dev nD) (t : Fin cfg0.N) : S5000x128.Idx → EReal := iblk0 V c 0 t
abbrev aBlk (c : Dev nD) (t : Fin cfg0.N) : S5000x128.Idx → EReal := iblk0 V c 1 t
abbrev wRelBlk (c : Dev nD) (t : Fin cfg0.N) : S128x128.Idx → EReal := iblk0 V c 2 t
abbrev bRelBlk (c : Dev nD) (t : Fin cfg0.N) : S1x128.Idx → EReal := iblk0 V c 3 t
abbrev wRootBlk (c : Dev nD) (t : Fin cfg0.N) : S128x128.Idx → EReal := iblk0 V c 4 t
abbrev wResBlk (c : Dev nD) (t : Fin cfg0.N) : S128x128.Idx → EReal := iblk0 V c 5 t
abbrev bResBlk (c : Dev nD) (t : Fin cfg0.N) : S1x128.Idx → EReal := iblk0 V c 6 t

/-- A point of the grid as a block number below 20. -/
abbrev blkNo (t : Fin cfg0.N) : Fin 20 := ⟨t.val, lt_of_lt_of_eq t.isLt N_0⟩

/-- The printed index maps over the 20 points: the two row-blocked inputs and the first output sit at block (t, 0),
    every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Block `t` of the node features is rows 5000·t … of the array. -/
theorem xBlk_apply (c : Dev nD) (t : Fin cfg0.N) (p : Fin 5000) (k : Fin 128) :
    xBlk V c t (ix2 p k) = xArr V c (ix2 (Spec.row (blkNo t) p) k) := by
  obtain ⟨e0, e1, -⟩ := idx_facts t
  show V c main_arg0 (((cfg0.win 0).blk t).view.emb (ix2 p k)) = V c main_arg0 (ix2 (Spec.row (blkNo t) p) k)
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- Block `t` of the aggregated features is the same rows of its array. -/
theorem aBlk_apply (c : Dev nD) (t : Fin cfg0.N) (p : Fin 5000) (k : Fin 128) :
    aBlk V c t (ix2 p k) = aArr V c (ix2 (Spec.row (blkNo t) p) k) := by
  obtain ⟨-, -, e0, e1, -⟩ := idx_facts t
  show V c main_v13 (((cfg0.win 1).blk t).view.emb (ix2 p k)) = V c main_v13 (ix2 (Spec.row (blkNo t) p) k)
  refine congrArg (V c main_v13) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- The weight matrices' and the bias rows' one block is the whole array, at every point. -/
theorem wRelBlk_eq (c : Dev nD) (t : Fin cfg0.N) : wRelBlk V c t = wRel V c := by
  obtain ⟨-, -, -, -, e0, e1, -⟩ := idx_facts t
  funext j
  show V c main_arg2 (((cfg0.win 2).blk t).view.emb j) = V c main_arg2 j
  refine congrArg (V c main_arg2) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem bRelBlk_eq (c : Dev nD) (t : Fin cfg0.N) : bRelBlk V c t = bRel V c := by
  obtain ⟨-, -, -, -, -, -, e0, e1, -⟩ := idx_facts t
  funext j
  show V c main_v14 (((cfg0.win 3).blk t).view.emb j) = V c main_v14 j
  refine congrArg (V c main_v14) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem wRootBlk_eq (c : Dev nD) (t : Fin cfg0.N) : wRootBlk V c t = wRoot V c := by
  obtain ⟨-, -, -, -, -, -, -, -, e0, e1, -⟩ := idx_facts t
  funext j
  show V c main_arg4 (((cfg0.win 4).blk t).view.emb j) = V c main_arg4 j
  refine congrArg (V c main_arg4) (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem wResBlk_eq (c : Dev nD) (t : Fin cfg0.N) : wResBlk V c t = wRes V c := by
  obtain ⟨-, -, -, -, -, -, -, -, -, -, e0, e1, -⟩ := idx_facts t
  funext j
  show V c main_arg5 (((cfg0.win 5).blk t).view.emb j) = V c main_arg5 j
  refine congrArg (V c main_arg5) (funext fun a => Fin.ext ?_)
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem bResBlk_eq (c : Dev nD) (t : Fin cfg0.N) : bResBlk V c t = bRes V c := by
  obtain ⟨-, -, -, -, -, -, -, -, -, -, -, -, e0, e1, -⟩ := idx_facts t
  funext j
  show V c main_v15 (((cfg0.win 6).blk t).view.emb j) = V c main_v15 j
  refine congrArg (V c main_v15) (funext fun a => Fin.ext ?_)
  match a with
  | ⟨0, _⟩ => show win0_6.index t (0 : Fin 2) * 1 + 1 * (j 0).val = (j 0).val; omega
  | ⟨1, _⟩ => show win0_6.index t (1 : Fin 2) * 128 + 1 * (j 1).val = (j 1).val; omega

/-! ## The new features, and what a point's body computes of them -/

/-- The new features over the arrays the region finds. -/
def y (c : Dev nD) : Fin 100000 → Fin 128 → EReal :=
  Spec.newf (V c main_arg0) (V c main_v13) (V c main_arg2) (V c main_arg4) (V c main_arg5)
    (fun j => (V c main_v14 : S1x128.Idx → EReal) (ix2 0 j)) (fun j => (V c main_v15 : S1x128.Idx → EReal) (ix2 0 j))

/-- The block of new features the body computes at point `t`, from that point's input blocks. -/
abbrev newBlk (c : Dev nD) (t : Fin cfg0.N) : S5000x128.Idx → EReal :=
  k0_pay5 (F := Ideal) (xBlk V c t) (aBlk V c t) (wRelBlk V c t) (wRootBlk V c t) (wResBlk V c t) (bRelBlk V c t) (bResBlk V c t)

/-- It is the new features of rows 5000·t …: each dot product reads row 5000·t + p of its operand and row q of its
    weight matrix. -/
theorem newBlk_apply (c : Dev nD) (t : Fin cfg0.N) (p : Fin 5000) (q : Fin 128) :
    newBlk V c t (ix2 p q) = y V c (Spec.row (blkNo t) p) q := by
  refine (Pay.pay5_apply (xBlk V c t) (aBlk V c t) (wRelBlk V c t) (wRootBlk V c t) (wResBlk V c t) (bRelBlk V c t)
    (bResBlk V c t) p q).trans ?_
  rw [wRelBlk_eq, wRootBlk_eq, wResBlk_eq, bRelBlk_eq, bResBlk_eq]
  simp only [xBlk_apply, aBlk_apply]
  rfl

/-! ## What each case of the body leaves, at a point's own buffers and blocks -/

theorem pieceA7 (c : Dev nD) (t : Fin cfg0.N) (hc : cond0_0 (grid0.coords t)) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) = newBlk V c t :=
  Pieces.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t)

theorem pieceA8 (c : Dev nD) (t : Fin cfg0.N) (hc : cond0_0 (grid0.coords t)) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) = k0_pay1 (F := Ideal) (newBlk V c t) (k0_pay3 (F := Ideal)) :=
  Pieces.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t)

theorem pieceA9 (c : Dev nD) (t : Fin cfg0.N) (hc : cond0_0 (grid0.coords t)) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) = k0_pay2 (F := Ideal) (newBlk V c t) (k0_pay4 (F := Ideal)) :=
  Pieces.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t)

theorem pieceB7 (c : Dev nD) (t : Fin cfg0.N) (hc : ¬cond0_0 (grid0.coords t)) (xo8 xo9 : S1x128.Idx → EReal) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9 = newBlk V c t :=
  Pieces.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9

theorem pieceB8 (c : Dev nD) (t : Fin cfg0.N) (hc : ¬cond0_0 (grid0.coords t)) (xo8 xo9 : S1x128.Idx → EReal) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9 = k0_pay1 (F := Ideal) (newBlk V c t) xo8 :=
  Pieces.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9

theorem pieceB9 (c : Dev nD) (t : Fin cfg0.N) (hc : ¬cond0_0 (grid0.coords t)) (xo8 xo9 : S1x128.Idx → EReal) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9 = k0_pay2 (F := Ideal) (newBlk V c t) xo9 :=
  Pieces.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) hc (iblk0 V c 0 t) (iblk0 V c 1 t) (iblk0 V c 2 t) (iblk0 V c 3 t) (iblk0 V c 4 t) (iblk0 V c 5 t) (iblk0 V c 6 t) xo8 xo9

/-! ## The running sums, block by block -/

theorem accTo_zero (f : Fin 100000 → Fin 128 → EReal) (j : Fin 128) (h : 0 < 20) :
    Spec.accTo f j 0 h = 0 + Spec.blk f j ⟨0, h⟩ := rfl
theorem accTo_succ (f : Fin 100000 → Fin 128 → EReal) (j : Fin 128) (n : ℕ) (h : n + 1 < 20) :
    Spec.accTo f j (n + 1) h = Spec.accTo f j n (Nat.lt_of_succ_lt h) + Spec.blk f j ⟨n + 1, h⟩ := rfl

/-- Channel `q` of the new features summed over block `t` is the column sum of the body's block at `t`. -/
theorem blk_eq (c : Dev nD) (t : Fin cfg0.N) (q : Fin 128) :
    ∑ p : Fin 5000, newBlk V c t (ix2 p q) = Spec.blk (y V c) q (blkNo t) :=
  Finset.sum_congr rfl fun p _ => newBlk_apply V c t p q
/-- The same for the squares. -/
theorem blk_sq_eq (c : Dev nD) (t : Fin cfg0.N) (q : Fin 128) :
    ∑ p : Fin 5000, newBlk V c t (ix2 p q) * newBlk V c t (ix2 p q) = Spec.blk (Spec.sq (y V c)) q (blkNo t) :=
  Finset.sum_congr rfl fun p _ => by rw [newBlk_apply V c t p q]

/-! ## What the output buffers hold after each point -/

/-- After point `n` the first output buffer holds the block of new features of rows 5000·n …, and the two accumulator
    rows hold the running sums of the new features and of their squares over blocks 0 … n: by induction on the point,
    point 0 adding its block to the zero row, every later point to the row the point before left. -/
theorem outs_eq (c : Dev nD) : ∀ (n : ℕ) (h : n < cfg0.N),
    ((outsAt0 V c n h).1 : S5000x128.Idx → EReal) = newBlk V c ⟨n, h⟩
    ∧ (∀ q : Fin 128, ((outsAt0 V c n h).2.1 : S1x128.Idx → EReal) (ix2 0 q)
        = Spec.accTo (y V c) q n (lt_of_lt_of_eq h N_0))
    ∧ (∀ q : Fin 128, ((outsAt0 V c n h).2.2 : S1x128.Idx → EReal) (ix2 0 q)
        = Spec.accTo (Spec.sq (y V c)) q n (lt_of_lt_of_eq h N_0))
  | 0, h => by
    rw [outsAt0_A V c ⟨0, h⟩ rfl]
    dsimp only
    refine ⟨pieceA7 V c ⟨0, h⟩ _, fun q => ?_, fun q => ?_⟩
    · refine (congrFun (pieceA8 V c ⟨0, h⟩ _) (ix2 0 q)).trans ?_
      refine (Pay.pay1_apply _ _ q).trans ?_
      rw [Pay.pay3_apply, blk_eq V c ⟨0, h⟩ q]
      rfl
    · refine (congrFun (pieceA9 V c ⟨0, h⟩ _) (ix2 0 q)).trans ?_
      refine (Pay.pay2_apply _ _ q).trans ?_
      rw [Pay.pay4_apply, blk_sq_eq V c ⟨0, h⟩ q]
      rfl
  | n + 1, h => by
    have hN : cfg0.N = 20 := N_0
    have hB : ¬(⟨n + 1, h⟩ : Fin cfg0.N).val % 20 = 0 := by dsimp only; omega
    obtain ⟨-, ih8, ih9⟩ := outs_eq c n (Nat.lt_of_succ_lt h)
    rw [outsAt0_B V c ⟨n + 1, h⟩ hB]
    dsimp only
    refine ⟨pieceB7 V c ⟨n + 1, h⟩ _ _ _, fun q => ?_, fun q => ?_⟩
    · refine (congrFun (pieceB8 V c ⟨n + 1, h⟩ _ _ _) (ix2 0 q)).trans ?_
      refine (Pay.pay1_apply _ _ q).trans ?_
      rw [blk_eq V c ⟨n + 1, h⟩ q]
      exact congrArg (· + Spec.blk (y V c) q (blkNo ⟨n + 1, h⟩)) (ih8 q)
    · refine (congrFun (pieceB9 V c ⟨n + 1, h⟩ _ _ _) (ix2 0 q)).trans ?_
      refine (Pay.pay2_apply _ _ q).trans ?_
      rw [blk_sq_eq V c ⟨n + 1, h⟩ q]
      exact congrArg (· + Spec.blk (Spec.sq (y V c)) q (blkNo ⟨n + 1, h⟩)) (ih9 q)

/-! ## What the write-backs write, and the arrays after the last point -/

/-- The running sum does not depend on how its channel and its last block are spelt. -/
theorem accTo_congr (f : Fin 100000 → Fin 128 → EReal) {j j' : Fin 128} {n n' : ℕ} (hj : j = j') (hn : n = n')
    (h : n < 20) (h' : n' < 20) : Spec.accTo f j n h = Spec.accTo f j' n' h' := by
  subst hj hn; rfl

/-- The first result array: row r, channel j holds the new feature of node r in channel j. -/
abbrev G7 (c : Dev nD) : S100000x128.Idx → EReal := fun i => y V c (i 0) (i 1)
/-- The second and third: channel j holds the running sum over all 20 blocks of the new features, of their squares. -/
abbrev G8 (c : Dev nD) : S1x128.Idx → EReal := fun i => Spec.sumK (y V c) (i 1)
abbrev G9 (c : Dev nD) : S1x128.Idx → EReal := fun i => Spec.sumK (Spec.sq (y V c)) (i 1)

/-- Point `t` writes back the new features of rows 5000·t …: block `t` of the first result array. -/
theorem flushed7 (c : Dev nD) (t : Fin cfg0.N) (hf : (cfg0.win 7).flush t = true) :
    (dat0 V c).flushed 7 t = ((cfg0.win 7).blk t).view.read (Elt Ideal) (G7 V c) := by
  obtain ⟨-, -, -, -, -, -, -, -, -, -, -, -, -, -, e0, e1, -⟩ := idx_facts t
  show (cfg0.win 7).cut (grid0.coords t) ((dat0 V c).after 7 t) = _
  rw [after0_7, (outs_eq V c t.val t.isLt).1]
  have key : ∀ j : S5000x128.Idx, newBlk V c t j = G7 V c (((cfg0.win 7).blk t).view.emb j) := by
    intro j
    obtain ⟨p, q, rfl⟩ : ∃ (p : Fin 5000) (q : Fin 128), j = ix2 p q := ⟨j 0, j 1, eq_ix2 j⟩
    rw [newBlk_apply]
    show y V c (Spec.row (blkNo t) p) q
      = y V c ((((cfg0.win 7).blk t).view.emb (ix2 p q)) 0) ((((cfg0.win 7).blk t).view.emb (ix2 p q)) 1)
    congr 1 <;> apply Fin.ext
    · show 5000 * t.val + p.val = win0_7.index t (0 : Fin 2) * 5000 + 1 * p.val; omega
    · show q.val = win0_7.index t (1 : Fin 2) * 128 + 1 * q.val; omega
  exact funext key

/-- The one point that writes the accumulators back is the last, and it writes the running sums over all 20 blocks:
    the accumulators' one block is the whole row. -/
theorem flushed8 (c : Dev nD) (t : Fin cfg0.N) (hf : (cfg0.win 8).flush t = true) :
    (dat0 V c).flushed 8 t = ((cfg0.win 8).blk t).view.read (Elt Ideal) (G8 V c) := by
  have hN : cfg0.N = 20 := N_0
  have h19 : t.val = 19 := by have := (flush0_8 t).mp hf; have := t.isLt; omega
  obtain ⟨-, -, -, -, -, -, -, -, -, -, -, -, -, -, -, -, e0, e1, -⟩ := idx_facts t
  show (cfg0.win 8).cut (grid0.coords t) ((dat0 V c).after 8 t) = _
  rw [after0_8]
  have key : ∀ j : S1x128.Idx, ((outsAt0 V c t.val t.isLt).2.1 : S1x128.Idx → EReal) j
      = G8 V c (((cfg0.win 8).blk t).view.emb j) := by
    intro j
    obtain ⟨p, q, rfl⟩ : ∃ (p : Fin 1) (q : Fin 128), j = ix2 p q := ⟨j 0, j 1, eq_ix2 j⟩
    obtain rfl : p = 0 := Subsingleton.elim _ _
    rw [(outs_eq V c t.val t.isLt).2.1 q]
    show Spec.accTo (y V c) q t.val _ = Spec.accTo (y V c) ((((cfg0.win 8).blk t).view.emb (ix2 0 q)) 1) 19 _
    refine accTo_congr _ (Fin.ext ?_) h19 _ _
    show q.val = win0_8.index t (1 : Fin 2) * 128 + 1 * q.val; omega
  exact funext key

theorem flushed9 (c : Dev nD) (t : Fin cfg0.N) (hf : (cfg0.win 9).flush t = true) :
    (dat0 V c).flushed 9 t = ((cfg0.win 9).blk t).view.read (Elt Ideal) (G9 V c) := by
  have hN : cfg0.N = 20 := N_0
  have h19 : t.val = 19 := by have := (flush0_9 t).mp hf; have := t.isLt; omega
  obtain ⟨-, -, -, -, -, -, -, -, -, -, -, -, -, -, -, -, -, -, e0, e1⟩ := idx_facts t
  show (cfg0.win 9).cut (grid0.coords t) ((dat0 V c).after 9 t) = _
  rw [after0_9]
  have key : ∀ j : S1x128.Idx, ((outsAt0 V c t.val t.isLt).2.2 : S1x128.Idx → EReal) j
      = G9 V c (((cfg0.win 9).blk t).view.emb j) := by
    intro j
    obtain ⟨p, q, rfl⟩ : ∃ (p : Fin 1) (q : Fin 128), j = ix2 p q := ⟨j 0, j 1, eq_ix2 j⟩
    obtain rfl : p = 0 := Subsingleton.elim _ _
    rw [(outs_eq V c t.val t.isLt).2.2 q]
    show Spec.accTo (Spec.sq (y V c)) q t.val _
      = Spec.accTo (Spec.sq (y V c)) ((((cfg0.win 9).blk t).view.emb (ix2 0 q)) 1) 19 _
    refine accTo_congr _ (Fin.ext ?_) h19 _ _
    show q.val = win0_9.index t (1 : Fin 2) * 128 + 1 * q.val; omega
  exact funext key

/-- An index of the array is in point `t`'s block iff each coordinate is in the block's range on its axis. -/
theorem mem_blk7 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v16_0).slice (win0_7.rect t)).set ↔ _
  rw [View.set_slice_whole, Rect.mem_set_unit]
  exact Iff.rfl
theorem mem_blk8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v16_1).slice (win0_8.rect t)).set ↔ _
  rw [View.set_slice_whole, Rect.mem_set_unit]
  exact Iff.rfl
theorem mem_blk9 (t : Fin cfg0.N) (i : S1x128.Idx) :
    i ∈ ((cfg0.win 9).blk t).view.set ↔ ∀ a : Fin 2, win0_9.index t a * S1x128.size a ≤ (i a).val
      ∧ (i a).val < win0_9.index t a * S1x128.size a + S1x128.size a := by
  show i ∈ ((View.whole main_v16_2).slice (win0_9.rect t)).set ↔ _
  rw [View.set_slice_whole, Rect.mem_set_unit]
  exact Iff.rfl

/-- Row r of the first result array is in the block of point r / 5000. -/
theorem cover7 (i : S100000x128.Idx) :
    ∃ t : Fin cfg0.N, (cfg0.win 7).flush t = true ∧ i ∈ ((cfg0.win 7).blk t).view.set := by
  have hN : cfg0.N = 20 := N_0
  have h0 : (i 0).val < 100000 := (i 0).isLt
  have h1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

/-- The last point, as a point of the grid. -/
abbrev tLast : Fin cfg0.N := ⟨19, by rw [show cfg0.N = 20 from N_0]; decide⟩

/-- The accumulators' one block, written back by the last point, covers the whole row. -/
theorem cover8 (i : S1x128.Idx) :
    ∃ t : Fin cfg0.N, (cfg0.win 8).flush t = true ∧ i ∈ ((cfg0.win 8).blk t).view.set := by
  have h0 : (i 0).val < 1 := (i 0).isLt
  have h1 : (i 1).val < 128 := (i 1).isLt
  obtain ⟨-, -, -, -, -, -, -, -, -, -, -, -, -, -, -, -, e0, e1, -⟩ := idx_facts tLast
  refine ⟨tLast, (flush0_8 tLast).mpr rfl, ?_⟩
  rw [mem_blk8]
  intro a
  match a with
  | ⟨0, _⟩ =>
    show win0_8.index tLast (0 : Fin 2) * 1 ≤ (i 0).val ∧ (i 0).val < win0_8.index tLast (0 : Fin 2) * 1 + 1
    omega
  | ⟨1, _⟩ =>
    show win0_8.index tLast (1 : Fin 2) * 128 ≤ (i 1).val ∧ (i 1).val < win0_8.index tLast (1 : Fin 2) * 128 + 128
    omega
theorem cover9 (i : S1x128.Idx) :
    ∃ t : Fin cfg0.N, (cfg0.win 9).flush t = true ∧ i ∈ ((cfg0.win 9).blk t).view.set := by
  have h0 : (i 0).val < 1 := (i 0).isLt
  have h1 : (i 1).val < 128 := (i 1).isLt
  obtain ⟨-, -, -, -, -, -, -, -, -, -, -, -, -, -, -, -, -, -, e0, e1⟩ := idx_facts tLast
  refine ⟨tLast, (flush0_9 tLast).mpr rfl, ?_⟩
  rw [mem_blk9]
  intro a
  match a with
  | ⟨0, _⟩ =>
    show win0_9.index tLast (0 : Fin 2) * 1 ≤ (i 0).val ∧ (i 0).val < win0_9.index tLast (0 : Fin 2) * 1 + 1
    omega
  | ⟨1, _⟩ =>
    show win0_9.index tLast (1 : Fin 2) * 128 ≤ (i 1).val ∧ (i 1).val < win0_9.index tLast (1 : Fin 2) * 128 + 128
    omega

/-- After the last point the first result array holds the new features of every node. -/
theorem arr7 (c : Dev nD) :
    ((dat0 (F := Ideal) V c).arrAt 7 cfg0.N : S100000x128.Idx → EReal) = fun i => y V c (i 0) (i 1) :=
  (dat0 V c).arrAt_eq_of_cover 7 (G7 V c) (flushed7 V c) cover7

/-- The second holds, channel by channel, the running sum of the new features over the 20 blocks. -/
theorem arr8 (c : Dev nD) :
    ((dat0 (F := Ideal) V c).arrAt 8 cfg0.N : S1x128.Idx → EReal) = fun i => Spec.sumK (y V c) (i 1) :=
  (dat0 V c).arrAt_eq_of_cover 8 (G8 V c) (flushed8 V c) cover8

/-- The third, the running sum of their squares. -/
theorem arr9 (c : Dev nD) :
    ((dat0 (F := Ideal) V c).arrAt 9 cfg0.N : S1x128.Idx → EReal) = fun i => Spec.sumK (Spec.sq (y V c)) (i 1) :=
  (dat0 V c).arrAt_eq_of_cover 9 (G9 V c) (flushed9 V c) cover9

end Cert.KernelIdeal.Stage1

end
-- ==== Proof.KStage2.lean ====
/-
  The second kernel's region: the result array after its last grid point, as one function of the arrays the region finds.

  The region runs over 20 points. At point t the feature window and the result window hold rows 5000·t … 5000·t + 4999
  of their 100000 × 128 arrays; the mean, variance, γ and β windows are single rows of 128 entries whose block never
  moves. The body stores one whole block: entry (p, q) is
      (y (p, q) − mean q) · rsqrt (var q + ε) · γ q + β q,
  each row broadcast down the 5000 rows of the block. Read through the windows' positions this is block t of
      out r j = (y r j − mean j) · rsqrt (var j + ε) · γ j + β j;
  every point writes its block back, and row r lies in block r / 5000, so the blocks cover the array.
-/
import proofs.«105549_j2010044694725_1_alg».proof.Proof.Gen.KernelIdeal.Frame
import proofs.«105549_j2010044694725_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-buffer access, as the constant function. -/
theorem hz : (![0, 0] : Fin 2 → Nat) = fun _ => 0 := funext fun a => by fin_cases a <;> rfl

/-! ## The arithmetic at an index -/

/-- Entry (p, q) of the stored block: the feature block's entry, centred by the mean row, scaled by the reciprocal square
    root of the variance row plus ε and by the γ row, shifted by the β row; each row is read at (0, q). -/
theorem pay_apply (x0 : S5000x128.Idx → EReal) (x1 x2 x3 x4 : S1x128.Idx → EReal) (p : Fin 5000) (q : Fin 128) :
    k1_pay1 (F := Ideal) x0 x1 x2 x3 x4 (ix2 p q)
      = ((x0 (ix2 p q) - x1 (ix2 0 q)) * Ideal.rsqrt (x2 (ix2 0 q) + Spec.eps)) * x3 (ix2 0 q) + x4 (ix2 0 q) := by
  unfold k1_pay1
  simp only [shapeCast_self, addf_apply, mulf_apply, subf_apply, broadcastTo_1b_ab_apply]
  rfl

/-! ## Where each window's block sits -/

/-- The block indices over the 20 grid points: the feature window and the result window are at block (t, 0); the four
    row windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A grid point is below 20. -/
theorem lt20 (t : Fin cfg1.N) : t.val < 20 := Nat.lt_of_lt_of_eq t.isLt N_1

variable (V : (c : Dev nD) → (b : Ref sig .tc) → Buf (Elt Ideal) ((c : Thread nD τ).loc b))

/-- The arrays the region finds, at their literal types: the new features, and the mean, variance, γ and β rows. -/
abbrev yarr (c : Dev nD) : S100000x128.Idx → EReal := V c main_v16_0
abbrev mrow (c : Dev nD) : S1x128.Idx → EReal := V c main_v25
abbrev vrow (c : Dev nD) : S1x128.Idx → EReal := V c main_v26
abbrev grow (c : Dev nD) : S1x128.Idx → EReal := V c main_v27
abbrev brow (c : Dev nD) : S1x128.Idx → EReal := V c main_v28

/-- Entry (p, q) of the feature window's block at point t is entry (5000 t + p, q) of the feature array. -/
theorem yblk_apply (c : Dev nD) (t : Fin cfg1.N) (p : Fin 5000) (q : Fin 128) (r : Fin 100000)
    (hr : r.val = 5000 * t.val + p.val) :
    (iblk1 V c 0 t : S5000x128.Idx → EReal) (ix2 p q) = yarr V c (ix2 r q) := by
  obtain ⟨e0, e1, -⟩ := idx_facts t
  show yarr V c (((cfg1.win 0).blk t).view.emb (ix2 p q)) = _
  refine congrArg (yarr V c) ?_
  funext a; apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Entry (0, q) of each row window's block, at any point, is entry (0, q) of its row. -/
theorem mblk_apply (c : Dev nD) (t : Fin cfg1.N) (q : Fin 128) :
    (iblk1 V c 1 t : S1x128.Idx → EReal) (ix2 0 q) = mrow V c (ix2 0 q) := by
  obtain ⟨-, -, e0, e1, -⟩ := idx_facts t
  show mrow V c (((cfg1.win 1).blk t).view.emb (ix2 0 q)) = _
  refine congrArg (mrow V c) ?_
  funext a; apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega
theorem vblk_apply (c : Dev nD) (t : Fin cfg1.N) (q : Fin 128) :
    (iblk1 V c 2 t : S1x128.Idx → EReal) (ix2 0 q) = vrow V c (ix2 0 q) := by
  obtain ⟨-, -, -, -, e0, e1, -⟩ := idx_facts t
  show vrow V c (((cfg1.win 2).blk t).view.emb (ix2 0 q)) = _
  refine congrArg (vrow V c) ?_
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega
theorem gblk_apply (c : Dev nD) (t : Fin cfg1.N) (q : Fin 128) :
    (iblk1 V c 3 t : S1x128.Idx → EReal) (ix2 0 q) = grow V c (ix2 0 q) := by
  obtain ⟨-, -, -, -, -, -, e0, e1, -⟩ := idx_facts t
  show grow V c (((cfg1.win 3).blk t).view.emb (ix2 0 q)) = _
  refine congrArg (grow V c) ?_
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega
theorem bblk_apply (c : Dev nD) (t : Fin cfg1.N) (q : Fin 128) :
    (iblk1 V c 4 t : S1x128.Idx → EReal) (ix2 0 q) = brow V c (ix2 0 q) := by
  obtain ⟨-, -, -, -, -, -, -, -, e0, e1, -⟩ := idx_facts t
  show brow V c (((cfg1.win 4).blk t).view.emb (ix2 0 q)) = _
  refine congrArg (brow V c) ?_
  funext a; apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-! ## The result array as one function -/

/-- The normalised features, entry by entry, of the arrays the region finds. -/
abbrev G (c : Dev nD) : S100000x128.Idx → EReal := fun i =>
  Spec.bn (fun r j => yarr V c (ix2 r j)) (fun j => mrow V c (ix2 0 j)) (fun j => vrow V c (ix2 0 j))
    (fun j => grow V c (ix2 0 j)) (fun j => brow V c (ix2 0 j)) (i 0) (i 1)

/-- What point t writes back is block t of that function: the body's one store over the blocks the windows hold, each
    block read where its window sits. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  have ht := lt20 t
  obtain ⟨-, -, -, -, -, -, -, -, -, -, e0, e1⟩ := idx_facts t
  have hemb : ((cfg1.win 5).blk t).view.emb (ix2 p q) = ix2 (⟨5000 * t.val + p.val, by omega⟩ : Fin 100000) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 128 + 1 * q.val = q.val; rw [e1]; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hemb]
  refine (pay_apply (iblk1 V c 0 t) (iblk1 V c 1 t) (iblk1 V c 2 t) (iblk1 V c 3 t) (iblk1 V c 4 t) p q).trans ?_
  rw [yblk_apply V c t p q ⟨5000 * t.val + p.val, by omega⟩ rfl, mblk_apply V c t q, vblk_apply V c t q,
    gblk_apply V c t q, bblk_apply V c t q]
  rfl

/-! ## The blocks cover the array -/

/-- An entry lies in point t's block iff each coordinate lies in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Row r lies in the block of point r / 5000, and every point writes its block back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-! ## The result array after the last point -/

/-- After the last point the result array holds the normalised features of the arrays the region found. -/
theorem arr5 (c : Dev nD) :
    ((dat1 (F := Ideal) V c).arrAt 5 cfg1.N : S100000x128.Idx → EReal)
      = fun i => Spec.bn (fun r j => (V c main_v16_0 : S100000x128.Idx → EReal) (ix2 r j))
          (fun j => (V c main_v25 : S1x128.Idx → EReal) (ix2 0 j)) (fun j => (V c main_v26 : S1x128.Idx → EReal) (ix2 0 j))
          (fun j => (V c main_v27 : S1x128.Idx → EReal) (ix2 0 j)) (fun j => (V c main_v28 : S1x128.Idx → EReal) (ix2 0 j)) (i 0) (i 1) :=
  (dat1 (F := Ideal) V c).arrAt_eq_of_cover 5 (G V c) (fun t _ => flushed_eq V c t) (cover)

end Cert.KernelIdeal.Stage2

end
-- ==== Proof.KHost.lean ====
/-
  The host operations of the first program, read as values.

  The program runs nineteen host operations, a kernel over twenty blocks of rows, fourteen host operations and a second
  kernel. The first stretch builds the aggregated neighbour features from the node features and the edge list and lays
  two per-channel vectors out as rows; it writes none of the arguments. The second stretch takes the two rows of column
  sums the first kernel leaves (of the new features, of their squares), divides each by the number of nodes, subtracts
  the square of the first quotient from the second, and lays the two results and two more per-channel vectors out as rows.
  Here each array a kernel reads is named as a function of the launch memory and of what the first kernel leaves.
-/
import proofs.«105549_j2010044694725_1_alg».proof.Proof.Gen.KernelIdeal.Frame
import proofs.«105549_j2010044694725_1_alg».proof.Proof.Spec
import proofs.«105549_j2010044694725_1_alg».proof.Proof.KAgg
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.HostRead

open Cert.KernelIdeal Cert.KernelIdeal.Gen
open Idealize.ShloMosaic Idealize.ShloMosaic.TcCoe Idealize.SL.Sem Idealize.ShloMosaic.ValueIdx

/-! ## Two layouts of a per-channel vector -/

/-- A vector of 128 channels laid out as one row reads, in column `j`, the vector's entry `j`. -/
theorem row_of_vec (x : S128.Idx → EReal) (h : S128.ShapeCasts S1x128) :
    (fun i => shapeCast S1x128 x h i) = fun i : S1x128.Idx => x (ix1 (i 1)) := by
  funext i
  obtain ⟨u, j, rfl⟩ : ∃ (u : Fin 1) (j : Fin 128), i = ix2 u j := ⟨i 0, i 1, eq_ix2 i⟩
  exact shapeCast_a_1a_apply x h u j

/-- A row of 128 channels read as a vector and divided by the number of nodes: entry `j` is the row's column `j`
    over that number. The divisor is the scalar literal copied to every channel. -/
theorem quot_apply (x : S1x128.Idx → EReal) (h : S1x128.ShapeCasts S128)
    (hb : S_.BroadcastsInDim S128 (![] : Fin 0 → Fin S128.rank)) (j : Fin 128) :
    Host.divf (F := Ideal) (φ := .f32) (fun k => shapeCast S128 x h k)
        (broadcastInDim S128 ![] hb (constant (F := Ideal) S_ .f32 0x47C35000#32)) (ix1 j)
      = Ideal.div (x (ix2 0 j)) Spec.nC := by
  show Ideal.div (shapeCast S128 x h (ix1 j)) (Ideal.ofBits .f32 0x47C35000#32) = _
  rw [shapeCast_1a_a_apply]

variable (m : (ℓ : Loc nD τ sig) → Buf (Elt Ideal) ℓ) (ρ : Dev nD → PrngReg)

/-! ## What the first kernel finds

The first stretch writes its own nineteen results and nothing else, so an argument is read as launched; each result is
the operation's function of what its operands held. -/

/-- The node features are as launched. -/
theorem V1_arg0 (c : Dev nD) : V1 m ρ c main_arg0 = m ((c : Thread nD τ).loc main_arg0) := by
  show StableHlo.after hostOps0 (W0 m ρ c) (Proc.devRef .tc main_arg0) = _
  after_results
/-- The weights applied to the aggregated features are as launched. -/
theorem V1_arg2 (c : Dev nD) : V1 m ρ c main_arg2 = m ((c : Thread nD τ).loc main_arg2) := by
  show StableHlo.after hostOps0 (W0 m ρ c) (Proc.devRef .tc main_arg2) = _
  after_results
/-- The weights applied to a node's own features in the first branch are as launched. -/
theorem V1_arg4 (c : Dev nD) : V1 m ρ c main_arg4 = m ((c : Thread nD τ).loc main_arg4) := by
  show StableHlo.after hostOps0 (W0 m ρ c) (Proc.devRef .tc main_arg4) = _
  after_results
/-- The weights of the second branch are as launched. -/
theorem V1_arg5 (c : Dev nD) : V1 m ρ c main_arg5 = m ((c : Thread nD τ).loc main_arg5) := by
  show StableHlo.after hostOps0 (W0 m ρ c) (Proc.devRef .tc main_arg5) = _
  after_results
/-- The scale vector, which only the second stretch reads, is as launched. -/
theorem V1_arg7 (c : Dev nD) : V1 m ρ c main_arg7 = m ((c : Thread nD τ).loc main_arg7) := by
  show StableHlo.after hostOps0 (W0 m ρ c) (Proc.devRef .tc main_arg7) = _
  after_results
/-- The shift vector, which only the second stretch reads, is as launched. -/
theorem V1_arg8 (c : Dev nD) : V1 m ρ c main_arg8 = m ((c : Thread nD τ).loc main_arg8) := by
  show StableHlo.after hostOps0 (W0 m ρ c) (Proc.devRef .tc main_arg8) = _
  after_results

attribute [local irreducible] Host.gather Host.scatterAdd in
/-- The seventeenth result is the aggregated neighbour features of the launched node features and edge list: the
    stretch's first seventeen operations are, in order, the operations that definition is made of. The gather and the
    scatter-add are compared as they stand, not opened. -/
theorem V1_v13 (c : Dev nD) :
    V1 m ρ c main_v13 = Agg.agg (F := Ideal) (m ((c : Thread nD τ).loc main_arg0)) (m ((c : Thread nD τ).loc main_arg1)) := by
  show StableHlo.after hostOps0 (W0 m ρ c) (Proc.devRef .tc main_v13) = _
  after_results
  rfl

/-- The first branch's bias vector laid out as one row. -/
theorem V1_v14 (c : Dev nD) : (V1 m ρ c main_v14 : S1x128.Idx → EReal)
    = fun i => (m ((c : Thread nD τ).loc main_arg3) : S128.Idx → EReal) (ix1 (i 1)) := by
  show StableHlo.after hostOps0 (W0 m ρ c) (Proc.devRef .tc main_v14) = _
  after_results
  exact row_of_vec _ _
/-- The second branch's bias vector laid out as one row. -/
theorem V1_v15 (c : Dev nD) : (V1 m ρ c main_v15 : S1x128.Idx → EReal)
    = fun i => (m ((c : Thread nD τ).loc main_arg6) : S128.Idx → EReal) (ix1 (i 1)) := by
  show StableHlo.after hostOps0 (W0 m ρ c) (Proc.devRef .tc main_v15) = _
  after_results
  exact row_of_vec _ _

/-! ## What the first kernel leaves

Its three output arrays (windows 7, 8, 9: the new features and the two rows of column sums) hold what the pipeline's
write-backs fold to. -/

theorem V2_v16_0 (c : Dev nD) : V2 m ρ c main_v16_0 = (dat0 (V1 m ρ) c).arrAt 7 cfg0.N := W2_arr m ρ c 7
theorem V2_v16_1 (c : Dev nD) : V2 m ρ c main_v16_1 = (dat0 (V1 m ρ) c).arrAt 8 cfg0.N := W2_arr m ρ c 8
theorem V2_v16_2 (c : Dev nD) : V2 m ρ c main_v16_2 = (dat0 (V1 m ρ) c).arrAt 9 cfg0.N := W2_arr m ρ c 9

/-! ## What the second kernel finds

The second stretch writes its own fourteen results and nothing else, so an array of the first kernel's is read as that
kernel left it; and an argument is read as the first stretch found it, since it is none of that kernel's ten arrays. -/

/-- The new features are as the first kernel left them. -/
theorem V3_v16_0 (c : Dev nD) : V3 m ρ c main_v16_0 = V2 m ρ c main_v16_0 := by
  show StableHlo.after hostOps1 (W2 m ρ c) (Proc.devRef .tc main_v16_0) = W2 m ρ c (Proc.devRef .tc main_v16_0)
  after_results

/-- The mean row: the row of column sums, channel by channel over the number of nodes. The row is read as a vector,
    divided, and laid out as a row again; column j goes to entry j and back. -/
theorem V3_v25 (c : Dev nD) : (V3 m ρ c main_v25 : S1x128.Idx → EReal)
    = fun i => Ideal.div ((V2 m ρ c main_v16_1 : S1x128.Idx → EReal) (ix2 0 (i 1))) Spec.nC := by
  show StableHlo.after hostOps1 (W2 m ρ c) (Proc.devRef .tc main_v25) = _
  after_results
  refine (row_of_vec _ _).trans ?_
  funext i
  exact quot_apply _ _ _ (i 1)

/-- The variance row: the row of column sums of squares over the number of nodes, less the square of the mean row,
    channel by channel. -/
theorem V3_v26 (c : Dev nD) : (V3 m ρ c main_v26 : S1x128.Idx → EReal)
    = fun i => Ideal.div ((V2 m ρ c main_v16_2 : S1x128.Idx → EReal) (ix2 0 (i 1))) Spec.nC
        - Ideal.div ((V2 m ρ c main_v16_1 : S1x128.Idx → EReal) (ix2 0 (i 1))) Spec.nC
          * Ideal.div ((V2 m ρ c main_v16_1 : S1x128.Idx → EReal) (ix2 0 (i 1))) Spec.nC := by
  show StableHlo.after hostOps1 (W2 m ρ c) (Proc.devRef .tc main_v26) = _
  after_results
  refine (row_of_vec _ _).trans ?_
  funext i
  -- a difference and a product of vectors are taken entry by entry
  rw [subf_apply, mulf_apply]
  exact congrArg₂ (· - ·) (quot_apply _ _ _ (i 1)) (congrArg₂ (· * ·) (quot_apply _ _ _ (i 1)) (quot_apply _ _ _ (i 1)))

/-- The scale vector laid out as one row. -/
theorem V3_v27 (c : Dev nD) : (V3 m ρ c main_v27 : S1x128.Idx → EReal)
    = fun i => (m ((c : Thread nD τ).loc main_arg7) : S128.Idx → EReal) (ix1 (i 1)) := by
  show StableHlo.after hostOps1 (W2 m ρ c) (Proc.devRef .tc main_v27) = _
  after_results
  refine (row_of_vec _ _).trans ?_
  rw [W2_of_ne m ρ c main_arg7 (by decide)]
  exact congrArg (fun (x : S128.Idx → EReal) => fun i : S1x128.Idx => x (ix1 (i 1))) (V1_arg7 m ρ c)
/-- The shift vector laid out as one row. -/
theorem V3_v28 (c : Dev nD) : (V3 m ρ c main_v28 : S1x128.Idx → EReal)
    = fun i => (m ((c : Thread nD τ).loc main_arg8) : S128.Idx → EReal) (ix1 (i 1)) := by
  show StableHlo.after hostOps1 (W2 m ρ c) (Proc.devRef .tc main_v28) = _
  after_results
  refine (row_of_vec _ _).trans ?_
  rw [W2_of_ne m ρ c main_arg8 (by decide)]
  exact congrArg (fun (x : S128.Idx → EReal) => fun i : S1x128.Idx => x (ix1 (i 1))) (V1_arg8 m ρ c)

end Cert.KernelIdeal.HostRead

end
-- ==== Proof.KValue.lean ====
/-
  What the kernel program's result array holds, as one function of the argument arrays.

  The result buffer's last contents are what the second kernel's region leaves: block by block,
  (y - mean)·rsqrt (var + ε)·γ + β of the arrays that region finds. Those are, read back through the host
  operations between the two regions and through the first region: y the new features of the launch arrays (the
  aggregated features computed from them by the first host operations), mean = S/n and var = Q/n - mean² of the
  running sums S, Q the first region leaves after its last block, γ and β the launch rows.
-/
import proofs.«105549_j2010044694725_1_alg».proof.Proof.KStage1
import proofs.«105549_j2010044694725_1_alg».proof.Proof.KStage2
import proofs.«105549_j2010044694725_1_alg».proof.Proof.KHost

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.HostRead

variable (m : (ℓ : Loc nD τ sig) → Buf (Elt Ideal) ℓ) (ρ : Dev nD → PrngReg)

/-- The new features as a function of the launch contents. -/
def Y (c : Dev nD) : Fin 100000 → Fin 128 → EReal :=
  Spec.newf (m ((c.tc : Thread Cert.KernelIdeal.nD Cert.KernelIdeal.τ).loc Cert.KernelIdeal.main_arg0)) (Cert.KernelIdeal.Agg.agg (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (fun j => (m ((c.tc : Thread Cert.KernelIdeal.nD Cert.KernelIdeal.τ).loc Cert.KernelIdeal.main_arg3) : Cert.KernelIdeal.S128.Idx → EReal) (ix1 j)) (fun j => (m ((c.tc : Thread Cert.KernelIdeal.nD Cert.KernelIdeal.τ).loc Cert.KernelIdeal.main_arg6) : Cert.KernelIdeal.S128.Idx → EReal) (ix1 j))

/-- The first region finds the launch arrays and the aggregated features: its new features are `Y`. -/
theorem y_eq (c : Dev nD) : Stage1.y (V1 m ρ) c = Y m c := by
  unfold Stage1.y Y
  rw [V1_arg0, V1_v13, V1_arg2, V1_arg4, V1_arg5, V1_v14, V1_v15]
  rfl

/-- The result buffer ends at the normalised new features, mean and variance from the running sums. -/
theorem value (c : Dev nD) :
    (W4 (F := Ideal) m ρ c (Proc.devRef .tc main_v29) : S100000x128.Idx → EReal)
      = fun i => Spec.bn (Y m c) (Spec.meanK (Y m c)) (Spec.varK (Y m c))
          (fun j => (m ((c : Thread nD τ).loc main_arg7) : S128.Idx → EReal) (ix1 j))
          (fun j => (m ((c : Thread nD τ).loc main_arg8) : S128.Idx → EReal) (ix1 j)) (i 0) (i 1) := by
  have h7 : (V3 m ρ c main_v16_0 : S100000x128.Idx → EReal) = fun i => Y m c (i 0) (i 1) := by
    rw [V3_v16_0, V2_v16_0]; exact (Stage1.arr7 (V1 m ρ) c).trans (by rw [y_eq])
  have h8 : (V2 m ρ c main_v16_1 : S1x128.Idx → EReal) = fun i => Spec.sumK (Y m c) (i 1) := by
    rw [V2_v16_1]; exact (Stage1.arr8 (V1 m ρ) c).trans (by rw [y_eq])
  have h9 : (V2 m ρ c main_v16_2 : S1x128.Idx → EReal) = fun i => Spec.sumK (Spec.sq (Y m c)) (i 1) := by
    rw [V2_v16_2]; exact (Stage1.arr9 (V1 m ρ) c).trans (by rw [y_eq])
  refine (W4_arr m ρ c 5).trans ?_
  refine (Stage2.arr5 (V3 m ρ) c).trans ?_
  rw [h7, V3_v25, V3_v26, V3_v27, V3_v28, h8, h9]
  rfl

end Cert.KernelIdeal.Value

end
-- ==== Proof.RAgg.lean ====
/-
  The aggregated neighbour features, as one function of the node features and the edge list.

  Edge e runs from node src e to node dst e (rows 0 and 1 of the edge array). A negative source index is
  shifted up by the number of nodes; the source's feature row is then read at that index (read signed and
  clamped into range), and the rows so gathered are added into a zero array at the rows dst names: row i of the
  result is the sum of the gathered rows of the edges whose destination is i, an edge whose destination is
  out of range adding nothing. Both programs compute this array with the same operations before anything else;
  here it is one definition, so that what follows can cite it without opening it.
-/
import proofs.«105549_j2010044694725_1_alg».proof.Proof.Gen.ReferenceIdeal

noncomputable section

namespace Cert.ReferenceIdeal.Agg

open Cert.ReferenceIdeal Idealize.ShloMosaic

open Facts₀ Facts

variable {F : FTy → Type} [FloatOps F]

/-- Row `k` of the edge array as a flat vector of 1600000 node indices. -/
def edgeRow0 (e : IVec S2x1600000 32) : IVec S1600000 32 :=
  shapeCast S1600000 (extractStridedSlice S1x1600000 ![0, 0] e slices_S2x1600000_S1x1600000_0_0) shapeCasts_S1x1600000_S1600000
def edgeRow1 (e : IVec S2x1600000 32) : IVec S1600000 32 :=
  shapeCast S1600000 (extractStridedSlice S1x1600000 ![1, 0] e slices_S2x1600000_S1x1600000_1_0) shapeCasts_S1x1600000_S1600000

/-- The source indices, a negative one shifted up by the number of nodes, as a column of start indices. -/
def srcIdx (e : IVec S2x1600000 32) : IVec S1600000x1 32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The destination indices as a column of scatter indices. -/
def dstIdx (e : IVec S2x1600000 32) : IVec S1600000x1 32 :=
  broadcastInDim S1600000x1 ![0] bcast_S1600000_S1600000x1_0 (edgeRow1 e)

/-- One feature row per edge: the source node's. -/
def gathered (x : FVec F S100000x128 .f32) (e : IVec S2x1600000 32) : FVec F S1600000x128 .f32 :=
  Host.gather gather_S100000x128_S1600000x1_S1600000x128_1_0_n_n_0_1_1128 x (srcIdx e)

/-- The aggregated features: the gathered rows added into a zero array at the destination rows. -/
def agg (x : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32)) (dstIdx e) (gathered x e)

end Cert.ReferenceIdeal.Agg

end
-- ==== Proof.RefTerm.lean ====
/-
  The reference program's result as one term of its argument arrays.

  y = max (A·Wrelᵀ + brel + x·Wrootᵀ) 0 + max (x·Wresᵀ + bres) 0 over all 100000 rows at once, A the aggregated
  features; mean = (column sums of y) / n; var: the column sums of (y - mean)² over n - 0, where n - 0 > 0 (else a
  not-a-number constant: the branch never taken); result = (y - mean)·rsqrt (var + ε)·γ + β, each per-channel row
  repeated down the rows. The operations are applied in the program's own order and grouping.
-/
import proofs.«105549_j2010044694725_1_alg».proof.Proof.RAgg

noncomputable section

namespace Cert.ReferenceIdeal.Term

open Cert.ReferenceIdeal Idealize.ShloMosaic

open Facts₀ Facts

variable {F : FTy → Type} [FloatOps F]

/-- max with zero, entry by entry. -/
def relu (v : FVec F S100000x128 .f32) : FVec F S100000x128 .f32 :=
  maximumf v (broadcastInDim S100000x128 ![] bcast_S_S100000x128 (constant S_ .f32 0x00000000#32))

/-- A per-channel vector repeated down the 100000 rows. -/
def rows (b : FVec F S128 .f32) : FVec F S100000x128 .f32 :=
  broadcastInDim S100000x128 ![0, 1] bcast_S1x128_S100000x128_0_1 (broadcastInDim S1x128 ![1] bcast_S128_S1x128_1 b)

/-- x·Wᵀ: row r, channel j is the sum over the input channels k of x r k · W j k. -/
def lin (x : FVec F S100000x128 .f32) (W : FVec F S128x128 .f32) : FVec F S100000x128 .f32 :=
  Host.dotGeneral dot_S100000x128_S128x128_S100000x128_1_0_0_1_n_n none x
    (transpose S128x128 [1, 0] W transposes_S128x128_S128x128_1_0)

/-- The new features. -/
def newfeats (x agg : FVec F S100000x128 .f32) (Wrel : FVec F S128x128 .f32) (brel : FVec F S128 .f32)
    (Wroot Wres : FVec F S128x128 .f32) (bres : FVec F S128 .f32) : FVec F S100000x128 .f32 :=
  addf (relu (addf (addf (lin agg Wrel) (rows brel)) (lin x Wroot))) (relu (addf (lin x Wres) (rows bres)))

/-- Column sums from zero. -/
def colSum (v : FVec F S100000x128 .f32) : FVec F S128 .f32 :=
  Host.reduceAdd v (constant S_ .f32 0x00000000#32) reducesTo_S100000x128_S128_d0 h_S_

/-- The per-channel mean. -/
def mean (v : FVec F S100000x128 .f32) : FVec F S128 .f32 :=
  Host.divf (colSum v) (broadcastInDim S128 ![] bcast_S_S128 (constant S_ .f32 0x47C35000#32))

/-- The divisor of the variance: n minus the integer zero read as a float. -/
def nMinus : FVec F S_ .f32 := subf (constant S_ .f32 0x47C35000#32) (sitofp .f32 (constantI S_ 32 0#32))

/-- The per-channel variance about the mean (the mean taken again, as a row). -/
def var (v : FVec F S100000x128 .f32) : FVec F S128 .f32 :=
  select (broadcastInDim S128 ![] bcast_S_S128 (cmpf .ogt (nMinus (F := F)) (constant S_ .f32 0x00000000#32)))
    (Host.divf
      (Host.reduceAdd
        (mulf
          (subf v (broadcastInDim S100000x128 ![0, 1] bcast_S1x128_S100000x128_0_1
            (Host.divf (broadcastInDim S1x128 ![1] bcast_S128_S1x128_1 (colSum v))
              (broadcastInDim S1x128 ![] bcast_S_S1x128 (constant S_ .f32 0x47C35000#32)))))
          (subf v (broadcastInDim S100000x128 ![0, 1] bcast_S1x128_S100000x128_0_1
            (Host.divf (broadcastInDim S1x128 ![1] bcast_S128_S1x128_1 (colSum v))
              (broadcastInDim S1x128 ![] bcast_S_S1x128 (constant S_ .f32 0x47C35000#32))))))
        (constant S_ .f32 0x00000000#32) reducesTo_S100000x128_S128_d0 h_S_)
      (broadcastInDim S128 ![] bcast_S_S128 (nMinus (F := F))))
    (broadcastInDim S128 ![] bcast_S_S128 (id (constant S_ .f32 0x7FC00000#32)))

/-- The result array. -/
def out (x : FVec F S100000x128 .f32) (e : IVec S2x1600000 32) (Wrel : FVec F S128x128 .f32) (brel : FVec F S128 .f32)
    (Wroot Wres : FVec F S128x128 .f32) (bres gamma beta : FVec F S128 .f32) : FVec F S100000x128 .f32 :=
  addf
    (mulf
      (mulf (subf (newfeats x (Agg.agg x e) Wrel brel Wroot Wres bres) (rows (mean (newfeats x (Agg.agg x e) Wrel brel Wroot Wres bres))))
        (rows (Host.rsqrt (addf (var (newfeats x (Agg.agg x e) Wrel brel Wroot Wres bres))
          (broadcastInDim S128 ![] bcast_S_S128 (constant S_ .f32 0x3727C5AC#32))))))
      (rows gamma))
    (rows beta)

end Cert.ReferenceIdeal.Term

end
-- ==== Proof.RefRun.lean ====
/-
  The reference program's run.

  @main is a straight line of tensor operations once its three calls are replaced by their bodies: the
  aggregation head (two rows of the edge array, the shifted source indices, the gather, the scatter-add into
  zeros), the two affine maps and their max with zero (each max a call of three operations: the zero, its
  broadcast, the maximum), their sum y, the column mean of y, the variance of y about its mean (a call of
  nineteen operations that ends in a call of three: the not-a-number constant at its own type, its broadcast,
  the select on "n minus zero is positive"), and the normalisation (y - mean)·rsqrt (var + ε)·γ + β. That line
  is `ops`, eighty-one operations in the program's order. Every weakly fair execution terminates, each buffer
  at the fold of `ops` over what the memory held at launch; at the result buffer that fold is the term
  `Term.out` of the nine argument arrays, and no operation writes an argument.
-/
import proofs.«105549_j2010044694725_1_alg».proof.Proof.Gen.ReferenceIdeal
import proofs.«105549_j2010044694725_1_alg».proof.Proof.RefTerm
import Idealize.ShloMosaic.Lib.StableHlo.Run
import Idealize.ShloMosaic.Lib.Tactic

noncomputable section

namespace Cert.ReferenceIdeal.Run

open Cert.ReferenceIdeal Idealize.ShloMosaic Idealize.ShloMosaic.TcCoe Idealize.ShloMosaic.StableHlo Idealize.SL.Sem

open Facts₀ Facts

variable {F : FTy → Type} [FloatOps F]

/-- @main's operations in order, the calls replaced by their bodies over the calls' own buffers: twenty-five of
    @main's (the aggregation and the first affine map), the first max with zero (three, its result the buffer of
    %22), five of @main's (the second affine map), the second max with zero (three, its result the buffer of
    %28), seven of @main's (y, its column sums, the mean, the integer zero), the variance (nineteen, then the
    three of the select, its result the buffer of %33), and @main's last sixteen. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v14 ((transpose S128x128 [1, 0] · transposes_S128x128_S128x128_1_0) : (⟨S128x128, .f32⟩ : BufTy).Contents (Elt F) → (⟨S128x128, .f32⟩ : BufTy).Contents (Elt F)),
    binary main_v13 main_v14 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    unary main_arg4 main_v19 ((transpose S128x128 [1, 0] · transposes_S128x128_S128x128_1_0) : (⟨S128x128, .f32⟩ : BufTy).Contents (Elt F) → (⟨S128x128, .f32⟩ : BufTy).Contents (Elt F)),
    binary main_arg0 main_v19 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v21) main_call0.v0 main_call0.v1 maximumf,
    unary main_arg5 main_v23 ((transpose S128x128 [1, 0] · transposes_S128x128_S128x128_1_0) : (⟨S128x128, .f32⟩ : BufTy).Contents (Elt F) → (⟨S128x128, .f32⟩ : BufTy).Contents (Elt F)),
    binary main_arg0 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v27) main_call1.v0 main_call1.v1 maximumf,
    binary main_v22 main_v28 main_v29 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v29 main_cst_1 main_v30 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v31 (broadcastInDim S128 ![] bcast_S_S128 : (⟨S_, .f32⟩ : BufTy).Contents (Elt F) → (⟨S128, .f32⟩ : BufTy).Contents (Elt F)),
    binary main_v30 main_v31 main_v32 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call2.cst (constant S_ .f32 0x00000000#32),
    TRef.binary (.of main_v29) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v29) main_call2.v4 main_call2.v5 subf,
    TRef.binary main_call2.v5 main_call2.v5 main_call2.v6 mulf,
    TRef.unary (.of main_c_3) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v32 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v29 main_v35 main_v36 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v37 (broadcastInDim S128 ![] bcast_S_S128 : (⟨S_, .f32⟩ : BufTy).Contents (Elt F) → (⟨S128, .f32⟩ : BufTy).Contents (Elt F)),
    binary main_v33 main_v37 main_v38 (addf : (⟨S128, .f32⟩ : BufTy).Contents (Elt F) → (⟨S128, .f32⟩ : BufTy).Contents (Elt F) → (⟨S128, .f32⟩ : BufTy).Contents (Elt F)),
    unary main_v38 main_v39 (Host.rsqrt : (⟨S128, .f32⟩ : BufTy).Contents (Elt F) → (⟨S128, .f32⟩ : BufTy).Contents (Elt F)),
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v36 main_v41 main_v42 (mulf : (⟨S100000x128, .f32⟩ : BufTy).Contents (Elt F) → (⟨S100000x128, .f32⟩ : BufTy).Contents (Elt F) → (⟨S100000x128, .f32⟩ : BufTy).Contents (Elt F)),
    unary main_arg7 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (mulf : (⟨S100000x128, .f32⟩ : BufTy).Contents (Elt F) → (⟨S100000x128, .f32⟩ : BufTy).Contents (Elt F) → (⟨S100000x128, .f32⟩ : BufTy).Contents (Elt F)),
    unary main_arg8 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

-- eighty-one operations deep: the comparison recurses once per operation
set_option maxRecDepth 8192 in
/-- @main is that straight line. A program is a finite tree of requests, and sequencing grafts what follows onto
    each leaf by computation; so with the three functions' bodies unfolded at their calls, and the calls' records
    at their fields, both sides compute to the same chain of single operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub ..,
    nullary_bufs_sub .., unary_bufs_sub .., binary_bufs_sub .., nullary_bufs_sub ..,
    unary_bufs_sub .., binary_bufs_sub .., ternary_bufs_sub .., unary_bufs_sub ..,
    binary_bufs_sub .., nullary_bufs_sub .., unary_bufs_sub .., unary_bufs_sub ..,
    ternary_bufs_sub .., unary_bufs_sub .., binary_bufs_sub .., unary_bufs_sub ..,
    unary_bufs_sub .., binary_bufs_sub .., unary_bufs_sub .., binary_bufs_sub ..,
    binary_bufs_sub .., nullary_bufs_sub .., unary_bufs_sub .., binary_bufs_sub ..,
    unary_bufs_sub .., binary_bufs_sub .., unary_bufs_sub .., unary_bufs_sub ..,
    binary_bufs_sub .., nullary_bufs_sub .., unary_bufs_sub .., binary_bufs_sub ..,
    binary_bufs_sub .., nullary_bufs_sub .., binary_bufs_sub .., nullary_bufs_sub ..,
    unary_bufs_sub .., binary_bufs_sub .., nullary_bufs_sub .., nullary_bufs_sub ..,
    binary_bufs_sub .., unary_bufs_sub .., nullary_bufs_sub .., unary_bufs_sub ..,
    binary_bufs_sub .., unary_bufs_sub .., binary_bufs_sub .., binary_bufs_sub ..,
    unary_bufs_sub .., nullary_bufs_sub .., binary_bufs_sub .., nullary_bufs_sub ..,
    binary_bufs_sub .., unary_bufs_sub .., binary_bufs_sub .., nullary_bufs_sub ..,
    binary_bufs_sub .., nullary_bufs_sub .., unary_bufs_sub .., unary_bufs_sub ..,
    ternary_bufs_sub .., unary_bufs_sub .., unary_bufs_sub .., binary_bufs_sub ..,
    nullary_bufs_sub .., unary_bufs_sub .., binary_bufs_sub .., unary_bufs_sub ..,
    unary_bufs_sub .., unary_bufs_sub .., binary_bufs_sub .., unary_bufs_sub ..,
    unary_bufs_sub .., binary_bufs_sub .., unary_bufs_sub .., unary_bufs_sub ..,
    binary_bufs_sub ..⟩

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd Host.reduceAdd in
set_option maxRecDepth 8192 in
set_option maxHeartbeats 400000 in
/-- The fold at the result buffer is the reference's term of the arguments. One pass reads each operation's
    result at the buffer it writes and passes over it at any other buffer (two literal buffers are distinct by
    decision), each shared intermediate visited once; what is left is the operations' own nest over the nine
    arguments, which is `Term.out` by unfolding its definitions, a typed reference's transport being the identity
    at a literal buffer. The gather, the scatter-add and the column sums stay folded meanwhile: the equation never
    looks inside them. -/
theorem out_eq (W : Valuation τ sig (Elt F)) :
    after ops W (main_v48 : DevRef τ sig)
      = Cert.ReferenceIdeal.Term.out (F := F) (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) (W (main_arg7 : DevRef τ sig)) (W (main_arg8 : DevRef τ sig)) := by
  after_results_simp
  rfl

/-! No operation writes an argument's buffer: each of the nine keeps what it held. -/

theorem arg0_eq (W : Valuation τ sig (Elt F)) :
    after ops W (main_arg0 : DevRef τ sig) = W (main_arg0 : DevRef τ sig) := by
  simp only [after_cons, after_nil]
  rfl

theorem arg1_eq (W : Valuation τ sig (Elt F)) :
    after ops W (main_arg1 : DevRef τ sig) = W (main_arg1 : DevRef τ sig) := by
  simp only [after_cons, after_nil]
  rfl

theorem arg2_eq (W : Valuation τ sig (Elt F)) :
    after ops W (main_arg2 : DevRef τ sig) = W (main_arg2 : DevRef τ sig) := by
  simp only [after_cons, after_nil]
  rfl

theorem arg3_eq (W : Valuation τ sig (Elt F)) :
    after ops W (main_arg3 : DevRef τ sig) = W (main_arg3 : DevRef τ sig) := by
  simp only [after_cons, after_nil]
  rfl

theorem arg4_eq (W : Valuation τ sig (Elt F)) :
    after ops W (main_arg4 : DevRef τ sig) = W (main_arg4 : DevRef τ sig) := by
  simp only [after_cons, after_nil]
  rfl

theorem arg5_eq (W : Valuation τ sig (Elt F)) :
    after ops W (main_arg5 : DevRef τ sig) = W (main_arg5 : DevRef τ sig) := by
  simp only [after_cons, after_nil]
  rfl

theorem arg6_eq (W : Valuation τ sig (Elt F)) :
    after ops W (main_arg6 : DevRef τ sig) = W (main_arg6 : DevRef τ sig) := by
  simp only [after_cons, after_nil]
  rfl

theorem arg7_eq (W : Valuation τ sig (Elt F)) :
    after ops W (main_arg7 : DevRef τ sig) = W (main_arg7 : DevRef τ sig) := by
  simp only [after_cons, after_nil]
  rfl

theorem arg8_eq (W : Valuation τ sig (Elt F)) :
    after ops W (main_arg8 : DevRef τ sig) = W (main_arg8 : DevRef τ sig) := by
  simp only [after_cons, after_nil]
  rfl

/-- THE RUN, READ: for any float values, from any memory with zero counters, every weakly fair execution of @main
    on the TensorCores terminates with the result array at the reference's term of the launch contents of the
    nine arguments, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = Cert.ReferenceIdeal.Term.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v48).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _),
      (h c main_arg7).trans (arg7_eq _), (h c main_arg8).trans (arg8_eq _)⟩)
    (run_main m ρ)

end Cert.ReferenceIdeal.Run

end
-- ==== Proof.RefValue.lean ====
/-
  The reference program's result read at an index, over the extended reals.

  Each whole-array operation of the reference's result term is read at one entry. A scalar repeated over a shape
  reads the scalar; a per-channel vector kept as one row and laid down the rows reads, at (r, q), the vector at q;
  the transposed weight matrix at (k, j) is the matrix at (j, k); the product x·Wᵀ at (r, j) is the sum over the 128
  input channels k of x r k · W j k; a sum down the rows from zero at channel q is zero plus the sum over the 100000
  nodes. Pushed through the entrywise operations these give: the new features at (r, j) are the specification's
  y r j; the mean of channel j is (0 + ∑ y)/n; the variance's guard n - 0 > 0 holds (n denotes the real 100000), so
  the variance of channel j is (0 + ∑ (y - mean)²)/n; and the result at (r, j) is
  (y r j - mean j)·rsqrt (var j + ε)·γ j + β j. The aggregated features stay one unopened term throughout.
-/
import proofs.«105549_j2010044694725_1_alg».proof.Proof.RefTerm
import proofs.«105549_j2010044694725_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Cert.ReferenceIdeal Cert.ReferenceIdeal.Term Idealize.ShloMosaic Idealize.ShloMosaic.ValueIdx

open Facts₀ Facts

/-! ## Layout operations read at an index -/

/-- A scalar repeated over any shape reads the scalar. -/
theorem splat_apply {T : Shape} {α : Type} (h : S_.BroadcastsInDim T ![]) (x : S_.Idx → α) (j : T.Idx) :
    broadcastInDim T ![] h x j = x ix0 := by
  unfold broadcastInDim
  exact congrArg x (funext fun a => a.elim0)

/-- One row repeated down the 100000 rows reads, at (r, q), the row at q. -/
theorem downRows_apply {α : Type} (u : S1x128.Idx → α) (r : Fin 100000) (q : Fin 128) :
    broadcastInDim S100000x128 ![0, 1] bcast_S1x128_S100000x128_0_1 u (ix2 r q) = u (ix2 (0 : Fin 1) q) := by
  refine broadcastInDim_apply _ _ _ (ix2 r q) (ix2 (0 : Fin 1) q) (fun a => ?_)
  match a with
  | ⟨0, _⟩ => rfl
  | ⟨1, _⟩ => rfl

/-- A per-channel vector kept as one row reads, at (0, q), the vector at q. -/
theorem asRow_apply {α : Type} (b : S128.Idx → α) (q : Fin 128) :
    broadcastInDim S1x128 ![1] bcast_S128_S1x128_1 b (ix2 (0 : Fin 1) q) = b (ix1 q) := by
  refine broadcastInDim_apply _ _ _ (ix2 (0 : Fin 1) q) (ix1 q) (fun a => ?_)
  match a with
  | ⟨0, _⟩ => rfl

/-- A per-channel vector repeated down the rows reads, at (r, q), the vector at q. -/
theorem rows_apply (b : S128.Idx → EReal) (r : Fin 100000) (q : Fin 128) :
    rows (F := Ideal) b (ix2 r q) = b (ix1 q) := by
  unfold rows
  rw [downRows_apply, asRow_apply]

/-- The transposed weight matrix at (k, j) is the matrix at (j, k). -/
theorem transpose_W_apply (W : S128x128.Idx → EReal) (k j : Fin 128) :
    transpose S128x128 [1, 0] W transposes_S128x128_S128x128_1_0 (ix2 k j) = W (ix2 j k) := by
  refine transpose_apply _ _ _ (ix2 k j) (ix2 j k) (fun b => ?_)
  match b with
  | ⟨0, _⟩ => rfl
  | ⟨1, _⟩ => rfl

/-! ## The product with a transposed weight matrix read at an index -/

/-- The left operand's row coordinate is the result's row. -/
theorem lhs_lin_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
/-- The left operand's column coordinate is the contracted one. -/
theorem lhs_lin_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row coordinate is the contracted one. -/
theorem rhs_lin_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column coordinate is the result's column. -/
theorem rhs_lin_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- x·Wᵀ at node r, channel j: the sum over the input channels k of x r k · W j k. -/
theorem lin_apply (x : S100000x128.Idx → EReal) (W : S128x128.Idx → EReal) (r : Fin 100000) (j : Fin 128) :
    lin (F := Ideal) x W (ix2 r j) = ∑ k : Fin 128, x (ix2 r k) * W (ix2 j k) := by
  unfold lin
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j)
      ((contrEquiv1 dot_S100000x128_S128x128_S100000x128_1_0_0_1_n_n 128 rfl rfl).symm k) = ix2 r k :=
    funext fun a => Fin.ext (by
      match a with
      | ⟨0, _⟩ => exact lhs_lin_0 _ _
      | ⟨1, _⟩ => exact (lhs_lin_1 _ _).trans hk)
  have er : dot_S100000x128_S128x128_S100000x128_1_0_0_1_n_n.rhsIdx (ix2 r j)
      ((contrEquiv1 dot_S100000x128_S128x128_S100000x128_1_0_0_1_n_n 128 rfl rfl).symm k) = ix2 k j :=
    funext fun a => Fin.ext (by
      match a with
      | ⟨0, _⟩ => exact (rhs_lin_0 _ _).trans hk
      | ⟨1, _⟩ => exact rhs_lin_1 _ _)
  rw [el, er, transpose_W_apply]

/-! ## The new features -/

/-- max with zero at an index. -/
theorem relu_apply (v : S100000x128.Idx → EReal) (i : S100000x128.Idx) : relu (F := Ideal) v i = max (v i) 0 := by
  unfold relu
  rw [maximumf_apply, splat_apply, constant_apply, Ideal.ofBits_zero_f32]

/-- The reference's new features at node r, channel j. -/
theorem newfeats_apply (x agg : S100000x128.Idx → EReal) (Wrel : S128x128.Idx → EReal) (brel : S128.Idx → EReal)
    (Wroot Wres : S128x128.Idx → EReal) (bres : S128.Idx → EReal) (i : S100000x128.Idx) :
    newfeats (F := Ideal) x agg Wrel brel Wroot Wres bres i
      = Spec.newf x agg Wrel Wroot Wres (fun j => brel (ix1 j)) (fun j => bres (ix1 j)) (i 0) (i 1) := by
  obtain ⟨r, j, rfl⟩ : ∃ (r : Fin 100000) (j : Fin 128), i = ix2 r j := ⟨i 0, i 1, eq_ix2 i⟩
  show _ = Spec.newf x agg Wrel Wroot Wres (fun j => brel (ix1 j)) (fun j => bres (ix1 j)) r j
  unfold newfeats Spec.newf
  rw [addf_apply, relu_apply, relu_apply, addf_apply, addf_apply, addf_apply, lin_apply, lin_apply, lin_apply,
    rows_apply, rows_apply]

/-- The new features as a function of node and channel. -/
theorem newfeats_fun (x agg : S100000x128.Idx → EReal) (Wrel : S128x128.Idx → EReal) (brel : S128.Idx → EReal)
    (Wroot Wres : S128x128.Idx → EReal) (bres : S128.Idx → EReal) :
    (fun (r : Fin 100000) (q : Fin 128) => newfeats (F := Ideal) x agg Wrel brel Wroot Wres bres (ix2 r q))
      = Spec.newf x agg Wrel Wroot Wres (fun j => brel (ix1 j)) (fun j => bres (ix1 j)) :=
  funext fun r => funext fun q => newfeats_apply x agg Wrel brel Wroot Wres bres (ix2 r q)

/-! ## Column sums, mean and variance -/

/-- The host's quotient at an index is the exact division of the entries. -/
theorem quot_apply {s : Shape} (a b : s.Idx → EReal) (i : s.Idx) :
    Host.divf (F := Ideal) (φ := .f32) a b i = Ideal.div (a i) (b i) := rfl

/-- The host's reciprocal square root at an index is the exact one of the entry. -/
theorem rsqrt_apply {s : Shape} (a : s.Idx → EReal) (i : s.Idx) :
    Host.rsqrt (F := Ideal) (φ := .f32) a i = Ideal.rsqrt (a i) := rfl

/-- A sum down the rows from zero, at channel q: zero plus the sum over the nodes. -/
theorem sumRows_apply (v : S100000x128.Idx → EReal) (q : Fin 128) :
    Host.reduceAdd (F := Ideal) (φ := .f32) v (constant (F := Ideal) S_ .f32 0x00000000#32)
        reducesTo_S100000x128_S128_d0 h_S_ (ix1 q)
      = 0 + ∑ r : Fin 100000, v (ix2 r q) := by
  show Ideal.hostReduceAdd reducesTo_S100000x128_S128_d0 v
      (constant (F := Ideal) S_ .f32 0x00000000#32 (Shape.Idx.first h_S_)) (ix1 q) = _
  rw [Ideal.hostReduceAdd_single reducesTo_S100000x128_S128_d0 (by decide), constant_apply, Ideal.ofBits_zero_f32]
  refine congrArg (0 + ·) (Finset.sum_congr rfl fun k _ => ?_)
  exact congrArg v (funext fun a => Fin.ext (by
    match a with
    | ⟨0, _⟩ => rfl
    | ⟨1, _⟩ => rfl))

/-- The column sum of channel q. -/
theorem colSum_apply (v : S100000x128.Idx → EReal) (q : Fin 128) :
    colSum (F := Ideal) v (ix1 q) = 0 + ∑ r : Fin 100000, v (ix2 r q) := by
  unfold colSum
  exact sumRows_apply v q

/-- The reference's mean of channel j. -/
theorem mean_apply (v : S100000x128.Idx → EReal) (j : S128.Idx) :
    mean (F := Ideal) v j = Spec.meanR (fun r q => v (ix2 r q)) (j 0) := by
  obtain ⟨q, rfl⟩ : ∃ q : Fin 128, j = ix1 q := ⟨j 0, eq_ix1 j⟩
  show _ = Spec.meanR (fun r q => v (ix2 r q)) q
  unfold mean Spec.meanR Spec.colsum
  rw [quot_apply, colSum_apply, splat_apply, constant_apply]

/-- The mean taken again as a row and laid down the rows, at (r, q): channel q's mean. -/
theorem meanRow_apply (v : S100000x128.Idx → EReal) (r : Fin 100000) (q : Fin 128) :
    broadcastInDim S100000x128 ![0, 1] bcast_S1x128_S100000x128_0_1
        (Host.divf (F := Ideal) (φ := .f32) (broadcastInDim S1x128 ![1] bcast_S128_S1x128_1 (colSum (F := Ideal) v))
          (broadcastInDim S1x128 ![] bcast_S_S1x128 (constant (F := Ideal) S_ .f32 0x47C35000#32))) (ix2 r q)
      = Spec.meanR (fun r q => v (ix2 r q)) q := by
  unfold Spec.meanR Spec.colsum
  rw [downRows_apply, quot_apply, asRow_apply, colSum_apply, splat_apply, constant_apply]

/-- The variance's divisor is the number of nodes: the integer zero taken off it is the real zero. -/
theorem nMinus_apply : nMinus (F := Ideal) ix0 = Spec.nC := by
  unfold nMinus
  show Spec.nC - (((0#32 : BitVec 32).toInt : ℝ) : EReal) = Spec.nC
  rw [BitVec.toInt_zero, Int.cast_zero, EReal.coe_zero, sub_zero]

/-- The number of nodes is above zero, so the variance's guard holds. -/
theorem guard_apply : FloatOps.cmpf (F := Ideal) (φ := .f32) .ogt Spec.nC (Ideal.ofBits .f32 0x00000000#32) = 1#1 := by
  rw [Ideal.cmpf_def, Ideal.ofBits_zero_f32, Spec.nC_eq]
  unfold Ideal.cmp
  have h : (0 : EReal) < ((100000 : ℝ) : EReal) := EReal.coe_pos.mpr (by norm_num)
  show BitVec.ofBool (decide ((0 : EReal) < ((100000 : ℝ) : EReal))) = 1#1
  rw [decide_eq_true h]
  rfl

/-- The reference's variance of channel j: the guard holds, so it is the sum of squared deviations over n. -/
theorem var_apply (v : S100000x128.Idx → EReal) (j : S128.Idx) :
    var (F := Ideal) v j = Spec.varR (fun r q => v (ix2 r q)) (j 0) := by
  obtain ⟨q, rfl⟩ : ∃ q : Fin 128, j = ix1 q := ⟨j 0, eq_ix1 j⟩
  show _ = Spec.varR (fun r q => v (ix2 r q)) q
  unfold var
  rw [select_apply, splat_apply, cmpf_apply, nMinus_apply, constant_apply, guard_apply, select_one, quot_apply,
    sumRows_apply, splat_apply, nMinus_apply]
  unfold Spec.varR Spec.colsum
  refine congrArg (fun s => Ideal.div (0 + s) Spec.nC) (Finset.sum_congr rfl fun r _ => ?_)
  rw [mulf_apply, subf_apply, meanRow_apply]

/-! ## The result -/

/-- Normalising, scaling and shifting an array y, at node r and channel j. -/
theorem normalise_apply (y : S100000x128.Idx → EReal) (gamma beta : S128.Idx → EReal) (r : Fin 100000) (j : Fin 128) :
    addf (F := Ideal) (φ := .f32)
        (mulf
          (mulf (subf y (rows (F := Ideal) (mean (F := Ideal) y)))
            (rows (F := Ideal) (Host.rsqrt (addf (var (F := Ideal) y)
              (broadcastInDim S128 ![] bcast_S_S128 (constant (F := Ideal) S_ .f32 0x3727C5AC#32))))))
          (rows (F := Ideal) gamma))
        (rows (F := Ideal) beta) (ix2 r j)
      = Spec.bn (fun r q => y (ix2 r q)) (Spec.meanR (fun r q => y (ix2 r q))) (Spec.varR (fun r q => y (ix2 r q)))
          (fun j => gamma (ix1 j)) (fun j => beta (ix1 j)) r j := by
  unfold Spec.bn
  rw [addf_apply, mulf_apply, mulf_apply, subf_apply, rows_apply, rows_apply, rows_apply, rows_apply, mean_apply,
    rsqrt_apply, addf_apply, var_apply, splat_apply, constant_apply]

/-- The reference's result at node r = i 0, channel j = i 1. -/
theorem out_apply (x : S100000x128.Idx → EReal) (e : IVec S2x1600000 32) (Wrel : S128x128.Idx → EReal)
    (brel : S128.Idx → EReal) (Wroot Wres : S128x128.Idx → EReal) (bres gamma beta : S128.Idx → EReal) :
    out (F := Ideal) x e Wrel brel Wroot Wres bres gamma beta
      = fun i => Spec.bn (Spec.newf x (Agg.agg (F := Ideal) x e) Wrel Wroot Wres (fun j => brel (ix1 j)) (fun j => bres (ix1 j)))
          (Spec.meanR (Spec.newf x (Agg.agg (F := Ideal) x e) Wrel Wroot Wres (fun j => brel (ix1 j)) (fun j => bres (ix1 j))))
          (Spec.varR (Spec.newf x (Agg.agg (F := Ideal) x e) Wrel Wroot Wres (fun j => brel (ix1 j)) (fun j => bres (ix1 j))))
          (fun j => gamma (ix1 j)) (fun j => beta (ix1 j)) (i 0) (i 1) := by
  funext i
  obtain ⟨r, j, rfl⟩ : ∃ (r : Fin 100000) (j : Fin 128), i = ix2 r j := ⟨i 0, i 1, eq_ix2 i⟩
  show out (F := Ideal) x e Wrel brel Wroot Wres bres gamma beta (ix2 r j) = Spec.bn _ _ _ _ _ r j
  unfold out
  rw [normalise_apply, newfeats_fun]

end Cert.ReferenceIdeal.RefValue

end
-- ==== Proof.lean ====
/-
  The proof of `Cert.Claim`: a graph layer's kernel program against its plain reference, over the extended reals.

  Both programs first aggregate, for every node, the feature rows of its in-neighbours (the same gather and add on both
  sides: one array A). The new feature of node r in channel j is
      y r j = max (A_r·Wrel_j + brel_j + x_r·Wroot_j) 0 + max (x_r·Wres_j + bres_j) 0,
  and the result is y normalised per channel over the 100000 nodes, scaled and shifted:
      out r j = (y r j - mean j)·rsqrt (var j + ε)·γ j + β j.
  The kernel program computes y in 20 blocks of 5000 rows, keeps running sums S of y and Q of y² across the blocks,
  takes mean = S/n and var = Q/n - mean², and normalises block by block. The reference takes mean = (∑ y)/n and
  var = (∑ (y - mean)²)/n over all rows at once. Regrouping a sum changes nothing over the extended reals, so the two
  means agree outright; the two variances agree because every y r j is a REAL number under the precondition (the
  inputs are finite, A is zero plus finite sums of input entries, and sums, products and maxima of reals are real),
  and for reals Q/n - (S/n)² = ∑ (y - S/n)²/n. At an infinite entry the identity fails (∞ - ∞), which is where the
  precondition is used.
  The frames of the two kernel programs are the launch of their two regions over the host stretches between them; the
  reference is a straight line of host operations.
-/
import proofs.«105549_j2010044694725_1_alg».proof.Defs
import proofs.«105549_j2010044694725_1_alg».proof.Proof.Gen.Kernel
import proofs.«105549_j2010044694725_1_alg».proof.Proof.Gen.Kernel.Skeleton
import proofs.«105549_j2010044694725_1_alg».proof.Proof.Gen.Kernel.Launch
import proofs.«105549_j2010044694725_1_alg».proof.Proof.Gen.Kernel.Points
import proofs.«105549_j2010044694725_1_alg».proof.Proof.Gen.Kernel.Frame
import proofs.«105549_j2010044694725_1_alg».proof.Proof.Gen.KernelIdeal
import proofs.«105549_j2010044694725_1_alg».proof.Proof.Gen.KernelIdeal.Skeleton
import proofs.«105549_j2010044694725_1_alg».proof.Proof.Gen.KernelIdeal.Launch
import proofs.«105549_j2010044694725_1_alg».proof.Proof.Gen.KernelIdeal.Points
import proofs.«105549_j2010044694725_1_alg».proof.Proof.Gen.KernelIdeal.Frame
import proofs.«105549_j2010044694725_1_alg».proof.Proof.Gen.ReferenceIdeal
import proofs.«105549_j2010044694725_1_alg».proof.Proof.Gen.Pre_finite_inputs
import proofs.«105549_j2010044694725_1_alg».proof.Proof.Spec
import proofs.«105549_j2010044694725_1_alg».proof.Proof.Algebra
import proofs.«105549_j2010044694725_1_alg».proof.Proof.Finite
import proofs.«105549_j2010044694725_1_alg».proof.Proof.KernelRun
import proofs.«105549_j2010044694725_1_alg».proof.Proof.KValue
import proofs.«105549_j2010044694725_1_alg».proof.Proof.RefRun
import proofs.«105549_j2010044694725_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs gather and add the neighbours' rows with the same operations: one array. -/
theorem agg_eq (x : Cert.KernelIdeal.S100000x128.Idx → EReal) (e : IVec Cert.KernelIdeal.S2x1600000 32) :
    Cert.ReferenceIdeal.Agg.agg (F := Ideal) x e = Cert.KernelIdeal.Agg.agg (F := Ideal) x e := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Over the extended reals both programs end at (y - mean)·rsqrt (var + ε)·γ + β of the same new features y: the
    first takes mean and var from the block-by-block running sums of y and y², the second from the column sums of y and of
    (y - mean)²; under the precondition every y r j is a real number (the aggregated features are finite sums of
    real features), and there the two pairs agree. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v29), Cert.KernelIdeal.Run.run_named (F := Ideal) m ρ, ?_⟩
  refine (θ_run Cert.ReferenceIdeal.defs _ _).mono (fun _ h c => ⟨(h c).1.trans ?_, (h c).2⟩) (Cert.ReferenceIdeal.Run.run (F := Ideal) m' ρ')
  obtain ⟨h0, h1, h2, h3, h4, h5, h6, h7, h8⟩ := hagree c
  rw [h0, h1, h2, h3, h4, h5, h6, h7, h8, Cert.ReferenceIdeal.RefValue.out_apply]
  refine Eq.trans ?_ (Cert.KernelIdeal.Value.value m ρ c).symm
  obtain ⟨r0, r2, r3, r4, r5, r6, r7, r8⟩ := Cert.Finite.pre_real m hpre c
  have hY : ∀ r j, ∃ a : ℝ, Cert.KernelIdeal.Value.Y m c r j = (a : EReal) :=
    Spec.newf_real _ _ _ _ _ _ _ r0 (Cert.Finite.agg_real _ _ r0) r2 r4 r5 (fun j => r3 (ix1 j)) (fun j => r6 (ix1 j))
  have hm : Spec.meanK (Cert.KernelIdeal.Value.Y m c) = Spec.meanR (Cert.KernelIdeal.Value.Y m c) := funext fun j => Spec.meanK_eq _ j
  have hv : Spec.varK (Cert.KernelIdeal.Value.Y m c) = Spec.varR (Cert.KernelIdeal.Value.Y m c) := funext fun j => Spec.varK_eq _ hY j
  rw [hm, hv, agg_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
